-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S25000x128 : Shape := ⟨2, ![25000, 128]⟩
abbrev S128x128 : Shape := ⟨2, ![128, 128]⟩
abbrev S128 : Shape := ⟨1, ![128]⟩
abbrev S800000x1 : Shape := ⟨2, ![800000, 1]⟩
abbrev S200000x1 : Shape := ⟨2, ![200000, 1]⟩
abbrev S400000x1 : Shape := ⟨2, ![400000, 1]⟩
abbrev S800000 : Shape := ⟨1, ![800000]⟩
abbrev S200000 : Shape := ⟨1, ![200000]⟩
abbrev S400000 : Shape := ⟨1, ![400000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S25000x128 : S_.BroadcastsInDim S25000x128 (![] : Fin 0 → Fin S25000x128.rank)
  reducesTo_S25000x128_S_d0_1 : S25000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000x1 : S_.BroadcastsInDim S800000x1 (![] : Fin 0 → Fin S800000x1.rank)
  reducesTo_S800000x1_S_d0_1 : S800000x1.ReducesTo [0, 1] S_
  bcast_S_S200000x1 : S_.BroadcastsInDim S200000x1 (![] : Fin 0 → Fin S200000x1.rank)
  reducesTo_S200000x1_S_d0_1 : S200000x1.ReducesTo [0, 1] S_
  bcast_S_S400000x1 : S_.BroadcastsInDim S400000x1 (![] : Fin 0 → Fin S400000x1.rank)
  reducesTo_S400000x1_S_d0_1 : S400000x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S200000x1 .f32) (main_arg12 : FVec F S400000x1 .f32) (main_arg13 : FVec F S200000x1 .f32) (main_v48 : IVec S_ 1) (main_v49 : FVec F S800000x1 .f32) (main_v50 : FVec F S800000x1 .f32) : IVec S_ 1 :=
  let main_v51 : IVec S800000x1 1 := cmpf .olt main_v49 main_v50
  let main_c_19 : IVec S_ 1 := constantI S_ 1 1#1
  let main_v52 : IVec S_ 1 := (fun x v => Host.reduce IntOp.andi x v reducesTo_S800000x1_S_d0_1 h_S_) main_v51 main_c_19
  let main_v53 : IVec S_ 1 := andi main_v48 main_v52
  let main_v54 : FVec F S200000x1 .f32 := Host.absf main_arg11
  let main_cst_20 : FVec F S_ .f32 := constant S_ .f32 0x7F800000#32
  let main_v55 : FVec F S200000x1 .f32 := broadcastInDim S200000x1 ![] bcast_S_S200000x1 main_cst_20
  let main_v56 : IVec S200000x1 1 := cmpf .olt main_v54 main_v55
  let main_c_21 : IVec S_ 1 := constantI S_ 1 1#1
  let main_v57 : IVec S_ 1 := (fun x v => Host.reduce IntOp.andi x v reducesTo_S200000x1_S_d0_1 h_S_) main_v56 main_c_21
  let main_v58 : IVec S_ 1 := andi main_v53 main_v57
  let main_v59 : FVec F S400000x1 .f32 := Host.absf main_arg12
  let main_cst_22 : FVec F S_ .f32 := constant S_ .f32 0x7F800000#32
  let main_v60 : FVec F S400000x1 .f32 := broadcastInDim S400000x1 ![] bcast_S_S400000x1 main_cst_22
  let main_v61 : IVec S400000x1 1 := cmpf .olt main_v59 main_v60
  let main_c_23 : IVec S_ 1 := constantI S_ 1 1#1
  let main_v62 : IVec S_ 1 := (fun x v => Host.reduce IntOp.andi x v reducesTo_S400000x1_S_d0_1 h_S_) main_v61 main_c_23
  let main_v63 : IVec S_ 1 := andi main_v58 main_v62
  let main_v64 : FVec F S200000x1 .f32 := Host.absf main_arg13
  let main_cst_24 : FVec F S_ .f32 := constant S_ .f32 0x7F800000#32
  let main_v65 : FVec F S200000x1 .f32 := broadcastInDim S200000x1 ![] bcast_S_S200000x1 main_cst_24
  let main_v66 : IVec S200000x1 1 := cmpf .olt main_v64 main_v65
  let main_c_25 : IVec S_ 1 := constantI S_ 1 1#1
  let main_v67 : IVec S_ 1 := (fun x v => Host.reduce IntOp.andi x v reducesTo_S200000x1_S_d0_1 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S800000x1 .f32) (main_arg11 : FVec F S200000x1 .f32) (main_arg12 : FVec F S400000x1 .f32) (main_arg13 : FVec F S200000x1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S800000x1 .f32 := Host.absf main_arg10
  let main_cst_18 : FVec F S_ .f32 := constant S_ .f32 0x7F800000#32
  let main_v50 : FVec F S800000x1 .f32 := broadcastInDim S800000x1 ![] bcast_S_S800000x1 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S800000x1 .f32) (main_arg11 : FVec F S200000x1 .f32) (main_arg12 : FVec F S400000x1 .f32) (main_arg13 : FVec F S200000x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x128 .f32) (main_arg1 : FVec F S25000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S800000x1 .f32) (main_arg11 : FVec F S200000x1 .f32) (main_arg12 : FVec F S400000x1 .f32) (main_arg13 : FVec F S200000x1 .f32) (main_arg14 : IVec S800000 32) (main_arg15 : IVec S800000 32) (main_arg16 : IVec S200000 32) (main_arg17 : IVec S200000 32) (main_arg18 : IVec S400000 32) (main_arg19 : IVec S400000 32) (main_arg20 : IVec S200000 32) (main_arg21 : IVec S200000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S25000x128 .f32 := Host.absf main_arg1
  let main_cst_0 : FVec F S_ .f32 := constant S_ .f32 0x7F800000#32
  let main_v5 : FVec F S25000x128 .f32 := broadcastInDim S25000x128 ![] bcast_S_S25000x128 main_cst_0
  let main_v6 : IVec S25000x128 1 := cmpf .olt main_v4 main_v5
  let main_c_1 : IVec S_ 1 := constantI S_ 1 1#1
  let main_v7 : IVec S_ 1 := (fun x v => Host.reduce IntOp.andi x v reducesTo_S25000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x128 : Shape := ⟨2, ![50000, 128]⟩
abbrev S25000x128 : Shape := ⟨2, ![25000, 128]⟩
abbrev S128x128 : Shape := ⟨2, ![128, 128]⟩
abbrev S128 : Shape := ⟨1, ![128]⟩
abbrev S800000x1 : Shape := ⟨2, ![800000, 1]⟩
abbrev S200000x1 : Shape := ⟨2, ![200000, 1]⟩
abbrev S400000x1 : Shape := ⟨2, ![400000, 1]⟩
abbrev S800000 : Shape := ⟨1, ![800000]⟩
abbrev S200000 : Shape := ⟨1, ![200000]⟩
abbrev S400000 : Shape := ⟨1, ![400000]⟩
abbrev S5000x128 : Shape := ⟨2, ![5000, 128]⟩
abbrev S1x128 : Shape := ⟨2, ![1, 128]⟩
abbrev S_ : Shape := ⟨0, ![]⟩
abbrev S800000x128 : Shape := ⟨2, ![800000, 128]⟩
abbrev S200000x128 : Shape := ⟨2, ![200000, 128]⟩
abbrev S400000x128 : Shape := ⟨2, ![400000, 128]⟩

abbrev nBuf : Space → Nat
  | .hbm => 88
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S25000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S800000x1, .f32⟩
  | .hbm, ⟨11, _⟩ => ⟨S200000x1, .f32⟩
  | .hbm, ⟨12, _⟩ => ⟨S400000x1, .f32⟩
  | .hbm, ⟨13, _⟩ => ⟨S200000x1, .f32⟩
  | .hbm, ⟨14, _⟩ => ⟨S800000, .i32⟩
  | .hbm, ⟨15, _⟩ => ⟨S800000, .i32⟩
  | .hbm, ⟨16, _⟩ => ⟨S200000, .i32⟩
  | .hbm, ⟨17, _⟩ => ⟨S200000, .i32⟩
  | .hbm, ⟨18, _⟩ => ⟨S400000, .i32⟩
  | .hbm, ⟨19, _⟩ => ⟨S400000, .i32⟩
  | .hbm, ⟨20, _⟩ => ⟨S200000, .i32⟩
  | .hbm, ⟨21, _⟩ => ⟨S200000, .i32⟩
  | .hbm, ⟨22, _⟩ => ⟨S50000x128, .f32⟩
  | .hbm, ⟨23, _⟩ => ⟨S25000x128, .f32⟩
  | .hbm, ⟨24, _⟩ => ⟨S25000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S_, .i32⟩
  | .hbm, ⟨41, _⟩ => ⟨S200000, .i32⟩
  | .hbm, ⟨42, _⟩ => ⟨S200000, .i1⟩
  | .hbm, ⟨43, _⟩ => ⟨S_, .i32⟩
  | .hbm, ⟨44, _⟩ => ⟨S200000, .i32⟩
  | .hbm, ⟨45, _⟩ => ⟨S200000, .i32⟩
  | .hbm, ⟨46, _⟩ => ⟨S200000, .i32⟩
  | .hbm, ⟨47, _⟩ => ⟨S200000x1, .i32⟩
  | .hbm, ⟨48, _⟩ => ⟨S200000x128, .f32⟩
  | .hbm, ⟨49, _⟩ => ⟨S200000x128, .f32⟩
  | .hbm, ⟨50, _⟩ => ⟨S200000x128, .f32⟩
  | .hbm, ⟨51, _⟩ => ⟨S_, .f32⟩
  | .hbm, ⟨52, _⟩ => ⟨S50000x128, .f32⟩
  | .hbm, ⟨53, _⟩ => ⟨S200000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S400000, .i32⟩
  | .hbm, ⟨59, _⟩ => ⟨S400000, .i1⟩
  | .hbm, ⟨60, _⟩ => ⟨S_, .i32⟩
  | .hbm, ⟨61, _⟩ => ⟨S400000, .i32⟩
  | .hbm, ⟨62, _⟩ => ⟨S400000, .i32⟩
  | .hbm, ⟨63, _⟩ => ⟨S400000, .i32⟩
  | .hbm, ⟨64, _⟩ => ⟨S400000x1, .i32⟩
  | .hbm, ⟨65, _⟩ => ⟨S400000x128, .f32⟩
  | .hbm, ⟨66, _⟩ => ⟨S400000x128, .f32⟩
  | .hbm, ⟨67, _⟩ => ⟨S400000x128, .f32⟩
  | .hbm, ⟨68, _⟩ => ⟨S_, .f32⟩
  | .hbm, ⟨69, _⟩ => ⟨S25000x128, .f32⟩
  | .hbm, ⟨70, _⟩ => ⟨S400000x1, .i32⟩
  | .hbm, ⟨71, _⟩ => ⟨S25000x128, .f32⟩
  | .hbm, ⟨72, _⟩ => ⟨S_, .i32⟩
  | .hbm, ⟨73, _⟩ => ⟨S200000, .i32⟩
  | .hbm, ⟨74, _⟩ => ⟨S200000, .i1⟩
  | .hbm, ⟨75, _⟩ => ⟨S_, .i32⟩
  | .hbm, ⟨76, _⟩ => ⟨S200000, .i32⟩
  | .hbm, ⟨77, _⟩ => ⟨S200000, .i32⟩
  | .hbm, ⟨78, _⟩ => ⟨S200000, .i32⟩
  | .hbm, ⟨79, _⟩ => ⟨S200000x1, .i32⟩
  | .hbm, ⟨80, _⟩ => ⟨S200000x128, .f32⟩
  | .hbm, ⟨81, _⟩ => ⟨S200000x128, .f32⟩
  | .hbm, ⟨82, _⟩ => ⟨S200000x128, .f32⟩
  | .hbm, ⟨83, _⟩ => ⟨S_, .f32⟩
  | .hbm, ⟨84, _⟩ => ⟨S25000x128, .f32⟩
  | .hbm, ⟨85, _⟩ => ⟨S200000x1, .i32⟩
  | .hbm, ⟨86, _⟩ => ⟨S25000x128, .f32⟩
  | .hbm, ⟨87, _⟩ => ⟨S25000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_c : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_4 : Ref sig .tc := ⟨.hbm, 57, rfl⟩
abbrev main_v29 : Ref sig .tc := ⟨.hbm, 58, rfl⟩
abbrev main_v30 : Ref sig .tc := ⟨.hbm, 59, rfl⟩
abbrev main_c_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_7 : Ref sig .tc := ⟨.hbm, 72, rfl⟩
abbrev main_v41 : Ref sig .tc := ⟨.hbm, 73, rfl⟩
abbrev main_v42 : Ref sig .tc := ⟨.hbm, 74, rfl⟩
abbrev main_c_8 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_9 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  shapeCasts_S5000x128_S5000x128 : S5000x128.ShapeCasts S5000x128
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  bcast_S_S25000x128 : S_.BroadcastsInDim S25000x128 (![] : Fin 0 → Fin S25000x128.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S25000x128_S200000x1_S200000x128_1_0_n_n_0_1_1128_wf : GatherDims.WF S25000x128 S200000x1 S200000x128 [1] [0] [] [0] [] 1 ![1, 128]
  scatter_S50000x128_S200000x1_S200000x128_1_0_0_1_wf : ScatterDims.WF S50000x128 S200000x1 S200000x128 [1] [0] [0] 1
  gather_S25000x128_S400000x1_S400000x128_1_0_n_n_0_1_1128_wf : GatherDims.WF S25000x128 S400000x1 S400000x128 [1] [0] [] [0] [] 1 ![1, 128]
  scatter_S25000x128_S400000x1_S400000x128_1_0_0_1_wf : ScatterDims.WF S25000x128 S400000x1 S400000x128 [1] [0] [0] 1
  gather_S50000x128_S200000x1_S200000x128_1_0_n_n_0_1_1128_wf : GatherDims.WF S50000x128 S200000x1 S200000x128 [1] [0] [] [0] [] 1 ![1, 128]
  scatter_S25000x128_S200000x1_S200000x128_1_0_0_1_wf : ScatterDims.WF S25000x128 S200000x1 S200000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S25000x128.size a
  hwx1_3 : ∀ i : grid1.Coords, EltTy.bits .f32 = 32 ∨ (Rect.block (s := S25000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S25000x128.size a
  hwx2_3 : ∀ i : grid2.Coords, EltTy.bits .f32 = 32 ∨ (Rect.block (s := S25000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S25000x128.size a
  hwx5_0 : ∀ i : grid5.Coords, EltTy.bits .f32 = 32 ∨ (Rect.block (s := S25000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S25000x128.size a
  hwx5_1 : ∀ i : grid5.Coords, EltTy.bits .f32 = 32 ∨ (Rect.block (s := S25000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S25000x128.size a
  hwx5_2 : ∀ i : grid5.Coords, EltTy.bits .f32 = 32 ∨ (Rect.block (s := S25000x128) S5000x128.size (cc5_transform_2 i) (hinb5_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S25000x128_S200000x1_S200000x128_1_0_n_n_0_1_1128 : GatherDims S25000x128 S200000x1 S200000x128 where
  offsetDims := [1]
  collapsedSliceDims := [0]
  operandBatchingDims := []
  startIndicesBatchingDims := []
  startIndexMap := [0]
  indexVectorDim := 1
  sliceSizes := ![1, 128]
  wf := gather_S25000x128_S200000x1_S200000x128_1_0_n_n_0_1_1128_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S25000x128_S200000x1_S200000x128_1_0_0_1 : ScatterDims S25000x128 S200000x1 S200000x128 where
  updateWindowDims := [1]
  insertedWindowDims := [0]
  scatterDimsToOperandDims := [0]
  indexVectorDim := 1
  wf := scatter_S25000x128_S200000x1_S200000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v26) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v27) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v28) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v52) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S25000x128 : Shape := ⟨2, ![25000, 128]⟩
abbrev S128x128 : Shape := ⟨2, ![128, 128]⟩
abbrev S128 : Shape := ⟨1, ![128]⟩
abbrev S800000x1 : Shape := ⟨2, ![800000, 1]⟩
abbrev S200000x1 : Shape := ⟨2, ![200000, 1]⟩
abbrev S400000x1 : Shape := ⟨2, ![400000, 1]⟩
abbrev S800000 : Shape := ⟨1, ![800000]⟩
abbrev S200000 : Shape := ⟨1, ![200000]⟩
abbrev S400000 : Shape := ⟨1, ![400000]⟩
abbrev S_ : Shape := ⟨0, ![]⟩
abbrev S800000x128 : Shape := ⟨2, ![800000, 128]⟩
abbrev S1x128 : Shape := ⟨2, ![1, 128]⟩
abbrev S200000x128 : Shape := ⟨2, ![200000, 128]⟩
abbrev S400000x128 : Shape := ⟨2, ![400000, 128]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S25000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S800000x1, .f32⟩
  | .hbm, ⟨11, _⟩ => ⟨S200000x1, .f32⟩
  | .hbm, ⟨12, _⟩ => ⟨S400000x1, .f32⟩
  | .hbm, ⟨13, _⟩ => ⟨S200000x1, .f32⟩
  | .hbm, ⟨14, _⟩ => ⟨S800000, .i32⟩
  | .hbm, ⟨15, _⟩ => ⟨S800000, .i32⟩
  | .hbm, ⟨16, _⟩ => ⟨S200000, .i32⟩
  | .hbm, ⟨17, _⟩ => ⟨S200000, .i32⟩
  | .hbm, ⟨18, _⟩ => ⟨S400000, .i32⟩
  | .hbm, ⟨19, _⟩ => ⟨S400000, .i32⟩
  | .hbm, ⟨20, _⟩ => ⟨S200000, .i32⟩
  | .hbm, ⟨21, _⟩ => ⟨S200000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S128x128, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S_, .i32⟩
  | .hbm, ⟨43, _⟩ => ⟨S200000, .i32⟩
  | .hbm, ⟨44, _⟩ => ⟨S200000, .i1⟩
  | .hbm, ⟨45, _⟩ => ⟨S_, .i32⟩
  | .hbm, ⟨46, _⟩ => ⟨S200000, .i32⟩
  | .hbm, ⟨47, _⟩ => ⟨S200000, .i32⟩
  | .hbm, ⟨48, _⟩ => ⟨S200000, .i32⟩
  | .hbm, ⟨49, _⟩ => ⟨S200000x1, .i32⟩
  | .hbm, ⟨50, _⟩ => ⟨S200000x128, .f32⟩
  | .hbm, ⟨51, _⟩ => ⟨S128x128, .f32⟩
  | .hbm, ⟨52, _⟩ => ⟨S200000x128, .f32⟩
  | .hbm, ⟨53, _⟩ => ⟨S1x128, .f32⟩
  | .hbm, ⟨54, _⟩ => ⟨S200000x128, .f32⟩
  | .hbm, ⟨55, _⟩ => ⟨S200000x128, .f32⟩
  | .hbm, ⟨56, _⟩ => ⟨S200000x128, .f32⟩
  | .hbm, ⟨57, _⟩ => ⟨S200000x128, .f32⟩
  | .hbm, ⟨58, _⟩ => ⟨S_, .f32⟩
  | .hbm, ⟨59, _⟩ => ⟨S50000x128, .f32⟩
  | .hbm, ⟨60, _⟩ => ⟨S200000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S400000, .i32⟩
  | .hbm, ⟨66, _⟩ => ⟨S400000, .i1⟩
  | .hbm, ⟨67, _⟩ => ⟨S_, .i32⟩
  | .hbm, ⟨68, _⟩ => ⟨S400000, .i32⟩
  | .hbm, ⟨69, _⟩ => ⟨S400000, .i32⟩
  | .hbm, ⟨70, _⟩ => ⟨S400000, .i32⟩
  | .hbm, ⟨71, _⟩ => ⟨S400000x1, .i32⟩
  | .hbm, ⟨72, _⟩ => ⟨S400000x128, .f32⟩
  | .hbm, ⟨73, _⟩ => ⟨S128x128, .f32⟩
  | .hbm, ⟨74, _⟩ => ⟨S400000x128, .f32⟩
  | .hbm, ⟨75, _⟩ => ⟨S1x128, .f32⟩
  | .hbm, ⟨76, _⟩ => ⟨S400000x128, .f32⟩
  | .hbm, ⟨77, _⟩ => ⟨S400000x128, .f32⟩
  | .hbm, ⟨78, _⟩ => ⟨S400000x128, .f32⟩
  | .hbm, ⟨79, _⟩ => ⟨S400000x128, .f32⟩
  | .hbm, ⟨80, _⟩ => ⟨S_, .f32⟩
  | .hbm, ⟨81, _⟩ => ⟨S25000x128, .f32⟩
  | .hbm, ⟨82, _⟩ => ⟨S400000x1, .i32⟩
  | .hbm, ⟨83, _⟩ => ⟨S25000x128, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x128, .f32⟩
  | .hbm, ⟨93, _⟩ => ⟨S128x128, .f32⟩
  | .hbm, ⟨94, _⟩ => ⟨S200000x128, .f32⟩
  | .hbm, ⟨95, _⟩ => ⟨S1x128, .f32⟩
  | .hbm, ⟨96, _⟩ => ⟨S200000x128, .f32⟩
  | .hbm, ⟨97, _⟩ => ⟨S200000x128, .f32⟩
  | .hbm, ⟨98, _⟩ => ⟨S200000x128, .f32⟩
  | .hbm, ⟨99, _⟩ => ⟨S200000x128, .f32⟩
  | .hbm, ⟨100, _⟩ => ⟨S_, .f32⟩
  | .hbm, ⟨101, _⟩ => ⟨S25000x128, .f32⟩
  | .hbm, ⟨102, _⟩ => ⟨S200000x1, .i32⟩
  | .hbm, ⟨103, _⟩ => ⟨S25000x128, .f32⟩
  | .hbm, ⟨104, _⟩ => ⟨S25000x128, .f32⟩
  | .hbm, ⟨105, _⟩ => ⟨S25000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_1 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_3 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_4 : Ref sig .tc := ⟨.hbm, 64, rfl⟩
abbrev main_v36 : Ref sig .tc := ⟨.hbm, 65, rfl⟩
abbrev main_v37 : Ref sig .tc := ⟨.hbm, 66, rfl⟩
abbrev main_c_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_6 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_7 : Ref sig .tc := ⟨.hbm, 84, rfl⟩
abbrev main_v53 : Ref sig .tc := ⟨.hbm, 85, rfl⟩
abbrev main_v54 : Ref sig .tc := ⟨.hbm, 86, rfl⟩
abbrev main_c_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_9 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S1x128_S200000x128_0_1 : S1x128.BroadcastsInDim S200000x128 (![0, 1] : Fin 2 → Fin S200000x128.rank)
  bcast_S200000x1_S200000x128_0_1 : S200000x1.BroadcastsInDim S200000x128 (![0, 1] : Fin 2 → Fin S200000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S1x128_S400000x128_0_1 : S1x128.BroadcastsInDim S400000x128 (![0, 1] : Fin 2 → Fin S400000x128.rank)
  bcast_S400000x1_S400000x128_0_1 : S400000x1.BroadcastsInDim S400000x128 (![0, 1] : Fin 2 → Fin S400000x128.rank)
  bcast_S_S25000x128 : S_.BroadcastsInDim S25000x128 (![] : Fin 0 → Fin S25000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  gather_S25000x128_S200000x1_S200000x128_1_0_n_n_0_1_1128_wf : GatherDims.WF S25000x128 S200000x1 S200000x128 [1] [0] [] [0] [] 1 ![1, 128]
  dot_S200000x128_S128x128_S200000x128_1_0_0_1_n_n_wf : DotDims.WF S200000x128 S128x128 S200000x128 [1] [0] [0] [1] [] []
  scatter_S50000x128_S200000x1_S200000x128_1_0_0_1_wf : ScatterDims.WF S50000x128 S200000x1 S200000x128 [1] [0] [0] 1
  gather_S25000x128_S400000x1_S400000x128_1_0_n_n_0_1_1128_wf : GatherDims.WF S25000x128 S400000x1 S400000x128 [1] [0] [] [0] [] 1 ![1, 128]
  dot_S400000x128_S128x128_S400000x128_1_0_0_1_n_n_wf : DotDims.WF S400000x128 S128x128 S400000x128 [1] [0] [0] [1] [] []
  scatter_S25000x128_S400000x1_S400000x128_1_0_0_1_wf : ScatterDims.WF S25000x128 S400000x1 S400000x128 [1] [0] [0] 1
  gather_S50000x128_S200000x1_S200000x128_1_0_n_n_0_1_1128_wf : GatherDims.WF S50000x128 S200000x1 S200000x128 [1] [0] [] [0] [] 1 ![1, 128]
  scatter_S25000x128_S200000x1_S200000x128_1_0_0_1_wf : ScatterDims.WF S25000x128 S200000x1 S200000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S25000x128_S200000x1_S200000x128_1_0_n_n_0_1_1128 : GatherDims S25000x128 S200000x1 S200000x128 where
  offsetDims := [1]
  collapsedSliceDims := [0]
  operandBatchingDims := []
  startIndicesBatchingDims := []
  startIndexMap := [0]
  indexVectorDim := 1
  sliceSizes := ![1, 128]
  wf := gather_S25000x128_S200000x1_S200000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S25000x128_S200000x1_S200000x128_1_0_0_1 : ScatterDims S25000x128 S200000x1 S200000x128 where
  updateWindowDims := [1]
  insertedWindowDims := [0]
  scatterDimsToOperandDims := [0]
  indexVectorDim := 1
  wf := scatter_S25000x128_S200000x1_S200000x128_1_0_0_1_wf

class Facts : Prop extends Facts₀ where

variable [Facts]
-- ==== Proof.LibIndexRead.lean ====
/-
  An accumulating scatter and a row gather, read at an index.

  For the dimension numbers jnp's `x.at[idx].add(u)`, `segment_sum` and `x[idx]` print along axis 0 — the index
  vector an [E, 1] column of words, one word per update or per gathered row —, the update e lands on row p exactly
  when word e, read signed, is p, and the gathered row e is the operand's row named by word e when that word
  is a row of the operand.
-/
import Idealize.ShloMosaic.PureOps.Ideal
import Idealize.ShloMosaic.Lib.ValueIdx

noncomputable section

namespace Cert.Sage.IndexRead

open Idealize.ShloMosaic Idealize.ShloMosaic.ValueIdx

/-- An update lands at `i` exactly when, on every axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

/-- The start of update `j` on the operand's one axis is word `j`, read signed. -/
private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The operand's one axis is inserted: no window coordinate. -/
private theorem vec_window (j : (⟨1, ![E]⟩ : Shape).Idx) : d.window j 0 = 0 := by
  obtain ⟨uw, iw, sd, iv, wf⟩ := d
  simp only at h1 h2 h3 h4
  subst h1 h2 h3 h4
  rfl

/-- Update `j` lands on entry `p` exactly when word `j`, read signed, is `p`. -/
private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

/-- Accumulating a vector of E updates into a vector of N entries: entry p is what it was plus the updates whose
    word is p. -/
theorem scatterAdd_vec {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : (⟨2, ![E, 1]⟩ : Shape).Idx → BitVec 32)
    (upd : (⟨1, ![E]⟩ : Shape).Idx → EReal) (p : Fin N) :
    Ideal.hostScatterAdd d x idx upd (ix1 p)
      = x (ix1 p) + ∑ e ∈ Finset.univ.filter (fun e : Fin E => (idx (ix2 e 0)).toInt = (p.val : Int)), upd (ix1 e) := by
  unfold Ideal.hostScatterAdd
  congr 1
  -- the update indices are the words' positions
  refine Finset.sum_nbij' (fun j => j 0) (fun e => ix1 e) ?_ ?_ ?_ ?_ ?_
  · intro j hj
    exact Finset.mem_filter.mpr ⟨Finset.mem_univ _, (vec_lands d h1 h2 h3 h4 idx j p).mp (Finset.mem_filter.mp hj).2⟩
  · intro e he
    exact Finset.mem_filter.mpr ⟨Finset.mem_univ _, (vec_lands d h1 h2 h3 h4 idx (ix1 e) p).mpr (Finset.mem_filter.mp he).2⟩
  · intro j _
    exact (eq_ix1 j).symm
  · intro e _
    rfl
  · intro j _
    exact congrArg upd (eq_ix1 j)

section Rows
variable {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
include h1 h2 h3 h4

/-- The start of update `j` on the operand's row axis is word `j 0`, read signed. -/
private theorem rows_start0 (idx : (⟨2, ![E, 1]⟩ : Shape).Idx → BitVec 32) (j : (⟨2, ![E, D]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The column axis is not a scattered one: its start is 0. -/
private theorem rows_start1 (idx : (⟨2, ![E, 1]⟩ : Shape).Idx → BitVec 32) (j : (⟨2, ![E, D]⟩ : Shape).Idx) :
    d.start j idx 1 = 0 := by
  obtain ⟨uw, iw, sd, iv, wf⟩ := d
  simp only at h1 h2 h3 h4
  subst h1 h2 h3 h4
  rfl

/-- The row axis is inserted: no window coordinate. -/
private theorem rows_window0 (j : (⟨2, ![E, D]⟩ : Shape).Idx) : d.window j 0 = 0 := by
  obtain ⟨uw, iw, sd, iv, wf⟩ := d
  simp only at h1 h2 h3 h4
  subst h1 h2 h3 h4
  rfl

/-- The window coordinate on the column axis is the update's column. -/
private theorem rows_window1 (j : (⟨2, ![E, D]⟩ : Shape).Idx) : d.window j 1 = (j 1).val := by
  obtain ⟨uw, iw, sd, iv, wf⟩ := d
  simp only at h1 h2 h3 h4
  subst h1 h2 h3 h4
  rfl

/-- Update `j` lands on entry `(p, q)` exactly when word `j 0`, read signed, is `p` and its column is `q`. -/
private theorem rows_lands (idx : (⟨2, ![E, 1]⟩ : Shape).Idx → BitVec 32) (j : (⟨2, ![E, D]⟩ : Shape).Idx)
    (p : Fin N) (q : Fin D) :
    d.resultIdx? j idx = some (ix2 p q) ↔ (idx (ix2 (j 0) 0)).toInt = (p.val : Int) ∧ j 1 = q := by
  rw [resultIdx?_eq_some_iff]
  constructor
  · intro h
    have h0 := h 0
    have hc := h 1
    rw [rows_start0 d h1 h2 h3 h4, rows_window0 d h1 h2 h3 h4, Nat.cast_zero, add_zero] at h0
    rw [rows_start1 d h1 h2 h3 h4, rows_window1 d h1 h2 h3 h4, zero_add] at hc
    exact ⟨h0, Fin.ext (Int.ofNat_inj.mp hc)⟩
  · rintro ⟨h0, hq⟩
    have f0 : d.start j idx 0 + (d.window j 0 : Int) = (p.val : Int) := by
      rw [rows_start0 d h1 h2 h3 h4, rows_window0 d h1 h2 h3 h4, Nat.cast_zero, add_zero]
      exact h0
    have f1 : d.start j idx 1 + (d.window j 1 : Int) = (q.val : Int) := by
      rw [rows_start1 d h1 h2 h3 h4, rows_window1 d h1 h2 h3 h4, zero_add, hq]
    intro a
    match a with
    | ⟨0, _⟩ => exact f0
    | ⟨1, _⟩ => exact f1

end Rows

/-- Accumulating E rows of D entries into an N x D matrix: entry (p, q) is what it was plus entry q of the rows
    whose word is p. -/
theorem scatterAdd_rows {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : (⟨2, ![E, 1]⟩ : Shape).Idx → BitVec 32)
    (upd : (⟨2, ![E, D]⟩ : Shape).Idx → EReal) (p : Fin N) (q : Fin D) :
    Ideal.hostScatterAdd d x idx upd (ix2 p q)
      = x (ix2 p q) + ∑ e ∈ Finset.univ.filter (fun e : Fin E => (idx (ix2 e 0)).toInt = (p.val : Int)), upd (ix2 e q) := by
  unfold Ideal.hostScatterAdd
  congr 1
  -- the update indices that land in column q are the rows' positions, at column q
  refine Finset.sum_nbij' (fun j => j 0) (fun e => ix2 e q) ?_ ?_ ?_ ?_ ?_
  · intro j hj
    exact Finset.mem_filter.mpr ⟨Finset.mem_univ _, ((rows_lands d h1 h2 h3 h4 idx j p q).mp (Finset.mem_filter.mp hj).2).1⟩
  · intro e he
    exact Finset.mem_filter.mpr ⟨Finset.mem_univ _, (rows_lands d h1 h2 h3 h4 idx (ix2 e q) p q).mpr ⟨(Finset.mem_filter.mp he).2, rfl⟩⟩
  · intro j hj
    have hq := ((rows_lands d h1 h2 h3 h4 idx j p q).mp (Finset.mem_filter.mp hj).2).2
    exact (congrArg (ix2 (j 0)) hq.symm).trans (eq_ix2 j).symm
  · intro e _
    rfl
  · intro j hj
    have hq := ((rows_lands d h1 h2 h3 h4 idx j p q).mp (Finset.mem_filter.mp hj).2).2
    exact congrArg upd ((eq_ix2 j).trans (congrArg (ix2 (j 0)) hq))

section Gather
variable {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
include h1 h2 h3 h4 h5 h6 h7

/-- The slice's start on the row axis is word `j 0`, read signed and clamped into `[0, N - 1]`. -/
private theorem gather_start0 (idx : (⟨2, ![E, 1]⟩ : Shape).Idx → BitVec 32) (j : (⟨2, ![E, D]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

/-- The column axis is not in the start index map: its start is 0. -/
private theorem gather_start1 (idx : (⟨2, ![E, 1]⟩ : Shape).Idx → BitVec 32) (j : (⟨2, ![E, D]⟩ : Shape).Idx) :
    d.start j idx 1 = 0 := by
  obtain ⟨od, cd, ob, sb, sm, iv, ss, wf⟩ := d
  simp only at h1 h2 h3 h4 h5 h6 h7
  subst h1 h2 h3 h4 h5 h6 h7
  rfl

/-- No batching axes: no batching coordinate. -/
private theorem gather_batch (j : (⟨2, ![E, D]⟩ : Shape).Idx) (a : Fin 2) : d.batchCoord j a = 0 :=
  d.batchCoord_eq_zero j a (by rw [h3]; exact List.not_mem_nil)

/-- The row axis is collapsed: no offset coordinate. -/
private theorem gather_off0 (j : (⟨2, ![E, D]⟩ : Shape).Idx) : d.offCoord j 0 = 0 := by
  obtain ⟨od, cd, ob, sb, sm, iv, ss, wf⟩ := d
  simp only at h1 h2 h3 h4 h5 h6 h7
  subst h1 h2 h3 h4 h5 h6 h7
  rfl

/-- The offset coordinate on the column axis is the result's column. -/
private theorem gather_off1 (j : (⟨2, ![E, D]⟩ : Shape).Idx) : d.offCoord j 1 = (j 1).val := by
  obtain ⟨od, cd, ob, sb, sm, iv, ss, wf⟩ := d
  simp only at h1 h2 h3 h4 h5 h6 h7
  subst h1 h2 h3 h4 h5 h6 h7
  rfl

end Gather

/-- Gathering E rows out of an N x D matrix: row e is the operand's row n when word e, read signed, is n. -/
theorem gather_rows {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (n : Fin N) (hn : (idx (ix2 e 0)).toInt = (n.val : Int)) :
    Host.gather d x idx (ix2 e q) = x (ix2 n q) := by
  -- row axis: the clamped start is n (n is a row of the operand), nothing else is added
  have f0 : d.start (ix2 e q) idx 0 + d.batchCoord (ix2 e q) 0 + d.offCoord (ix2 e q) 0 = n.val := by
    rw [gather_start0 d h1 h2 h3 h4 h5 h6 h7, gather_batch d h1 h2 h3 h4 h5 h6 h7, gather_off0 d h1 h2 h3 h4 h5 h6 h7]
    show min (idx (ix2 e 0)).toInt.toNat (N - 1) + 0 + 0 = n.val
    rw [hn, Int.toNat_natCast]
    have := n.isLt
    omega
  -- column axis: the start is 0 and the offset coordinate is q
  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

/-- Gathering E rows out of an N x D matrix, for any word: row e is the operand's row named by word e read signed
    and clamped into the operand, `min (max w 0) (N - 1)`. -/
theorem gather_rows_clamp {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (hN : 0 < N) :
    Host.gather d x idx (ix2 e q) = x (ix2 ⟨min (idx (ix2 e 0)).toInt.toNat (N - 1), by omega⟩ q) := by
  -- row axis: the clamped start, nothing else is added
  have f0 : d.start (ix2 e q) idx 0 + d.batchCoord (ix2 e q) 0 + d.offCoord (ix2 e q) 0
      = min (idx (ix2 e 0)).toInt.toNat (N - 1) := by
    rw [gather_start0 d h1 h2 h3 h4 h5 h6 h7, gather_batch d h1 h2 h3 h4 h5 h6 h7, gather_off0 d h1 h2 h3 h4 h5 h6 h7]
    rfl
  -- column axis: the start is 0 and the offset coordinate is q
  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

end Cert.Sage.IndexRead

end
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.RowAffine.lean ====
/-
  A row-wise affine map, and why it commutes with a gather of rows.

  For a matrix X of M rows, a weight matrix W and a bias b, the row-wise affine map sends X to the matrix whose
  entry (r, j) is  sum_k X(r, k) * W(j, k) + b(j):  row r of the result depends on row r of X only.  Gathering rows
  therefore commutes with it: row e of the gathered result is the affine image of the row of X that word e names,
  which is also row e of the affine image of the gathered X.  No law of the extended reals is used beyond reading
  both sides at an entry: the two sides are the same sum of the same products.

  The same map has two spellings met in programs: a matrix product with the transposed weights into a zero
  accumulator plus the bias broadcast over the rows (a kernel's block), and the host's product with the transposed
  weights plus the bias broadcast twice, [H] to [1, H] to [E, H].
-/
import Idealize.ShloMosaic.PureOps.Ideal
import Idealize.ShloMosaic.PureOps.Ideal.Laws
import Idealize.ShloMosaic.Lib.ValueIdx
import Idealize.ShloMosaic.Lib.ValueLayout
import proofs.«113510_j1357209665997_1_alg».proof.Proof.LibIndexRead
import proofs.«113510_j1357209665997_1_alg».proof.Proof.LibRealFactor

noncomputable section

namespace Cert.RowAffine

open Idealize.ShloMosaic Idealize.ShloMosaic.ValueIdx

/-- The row-wise affine map: entry (r, j) is the sum over k of X(r, k) * W(j, k), plus b(j). -/
def affineRows {M D H : Nat} (X : (⟨2, ![M, D]⟩ : Shape).Idx → EReal) (W : (⟨2, ![H, D]⟩ : Shape).Idx → EReal)
    (b : (⟨1, ![H]⟩ : Shape).Idx → EReal) : (⟨2, ![M, H]⟩ : Shape).Idx → EReal :=
  fun i => (∑ k : Fin D, X (ix2 (i 0) k) * W (ix2 (i 1) k)) + b (ix1 (i 1))

theorem affineRows_apply {M D H : Nat} (X : (⟨2, ![M, D]⟩ : Shape).Idx → EReal) (W : (⟨2, ![H, D]⟩ : Shape).Idx → EReal)
    (b : (⟨1, ![H]⟩ : Shape).Idx → EReal) (r : Fin M) (j : Fin H) :
    affineRows X W b (ix2 r j) = (∑ k : Fin D, X (ix2 r k) * W (ix2 j k)) + b (ix1 j) := rfl

/-- Gathering rows commutes with the row-wise affine map: both sides, at row e, are the affine image of the row of X
    that word e names (read signed and clamped into the matrix, as the gather does for every word). -/
theorem gather_affineRows {N E D H : Nat}
    (gX : GatherDims ⟨2, ![N, D]⟩ ⟨2, ![E, 1]⟩ ⟨2, ![E, D]⟩) (gY : GatherDims ⟨2, ![N, H]⟩ ⟨2, ![E, 1]⟩ ⟨2, ![E, H]⟩)
    (x1 : gX.offsetDims = [1]) (x2 : gX.collapsedSliceDims = [0]) (x3 : gX.operandBatchingDims = [])
    (x4 : gX.startIndicesBatchingDims = []) (x5 : gX.startIndexMap = [0]) (x6 : gX.indexVectorDim = 1)
    (x7 : gX.sliceSizes = ![1, D])
    (y1 : gY.offsetDims = [1]) (y2 : gY.collapsedSliceDims = [0]) (y3 : gY.operandBatchingDims = [])
    (y4 : gY.startIndicesBatchingDims = []) (y5 : gY.startIndexMap = [0]) (y6 : gY.indexVectorDim = 1)
    (y7 : gY.sliceSizes = ![1, H]) (hN : 0 < N)
    (X : (⟨2, ![N, D]⟩ : Shape).Idx → EReal) (W : (⟨2, ![H, D]⟩ : Shape).Idx → EReal)
    (b : (⟨1, ![H]⟩ : Shape).Idx → EReal) (idx : (⟨2, ![E, 1]⟩ : Shape).Idx → BitVec 32) :
    Host.gather gY (affineRows X W b) idx = affineRows (Host.gather gX X idx) W b := by
  funext i
  obtain ⟨e, q, rfl⟩ : ∃ (e : Fin E) (q : Fin H), i = ix2 e q := ⟨i 0, i 1, eq_ix2 i⟩
  rw [Cert.Sage.IndexRead.gather_rows_clamp gY y1 y2 y3 y4 y5 y6 y7 (affineRows X W b) idx e q hN,
    affineRows_apply, affineRows_apply]
  refine congrArg (· + b (ix1 q)) (Finset.sum_congr rfl fun k _ => ?_)
  rw [Cert.Sage.IndexRead.gather_rows_clamp gX x1 x2 x3 x4 x5 x6 x7 X idx e k hN]

/-- A bias broadcast [H] to [1, H] to [E, H] reads, at (e, q), the bias at q. -/
theorem bias_rows_apply {E H : Nat} (hb1 : (⟨1, ![H]⟩ : Shape).BroadcastsInDim ⟨2, ![1, H]⟩ ![1])
    (hb2 : (⟨2, ![1, H]⟩ : Shape).BroadcastsInDim ⟨2, ![E, H]⟩ ![0, 1])
    (b : (⟨1, ![H]⟩ : Shape).Idx → EReal) (e : Fin E) (q : Fin H) :
    broadcastInDim ⟨2, ![E, H]⟩ ![0, 1] hb2 (broadcastInDim ⟨2, ![1, H]⟩ ![1] hb1 b) (ix2 e q) = b (ix1 q) := by
  refine (broadcastInDim_apply ![0, 1] hb2 _ (ix2 e q) (ix2 (0 : Fin 1) q) fun a => ?_).trans
    (broadcastInDim_apply ![1] hb1 b (ix2 (0 : Fin 1) q) (ix1 q) fun a => ?_)
  · match a with
    | ⟨0, _⟩ => rfl
    | ⟨1, _⟩ =>
      show q.val = if H = 1 then 0 else q.val
      split
      · have := q.isLt; omega
      · rfl
  · match a with
    | ⟨0, _⟩ =>
      show q.val = if H = 1 then 0 else q.val
      split
      · have := q.isLt; omega
      · rfl

/-- The host's spelling of the row-wise affine map: the product with the transposed weights, plus the bias broadcast
    over the rows. -/
theorem host_affineRows {E D H : Nat} (dd : DotDims ⟨2, ![E, D]⟩ ⟨2, ![D, H]⟩ ⟨2, ![E, H]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (ht : (⟨2, ![H, D]⟩ : Shape).Transposes [1, 0] ⟨2, ![D, H]⟩)
    (hb1 : (⟨1, ![H]⟩ : Shape).BroadcastsInDim ⟨2, ![1, H]⟩ ![1])
    (hb2 : (⟨2, ![1, H]⟩ : Shape).BroadcastsInDim ⟨2, ![E, H]⟩ ![0, 1])
    (Y : FVec Ideal ⟨2, ![E, D]⟩ .f32) (W : FVec Ideal ⟨2, ![H, D]⟩ .f32) (b : FVec Ideal ⟨1, ![H]⟩ .f32) :
    addf (Host.dotGeneral dd none Y (transpose ⟨2, ![D, H]⟩ [1, 0] W ht))
        (broadcastInDim ⟨2, ![E, H]⟩ ![0, 1] hb2 (broadcastInDim ⟨2, ![1, H]⟩ ![1] hb1 b))
      = affineRows Y W b := by
  funext i
  obtain ⟨e, q, rfl⟩ : ∃ (e : Fin E) (q : Fin H), i = ix2 e q := ⟨i 0, i 1, eq_ix2 i⟩
  rw [affineRows_apply]
  show Host.dotGeneral dd none Y (transpose ⟨2, ![D, H]⟩ [1, 0] W ht) (ix2 e q)
      + broadcastInDim ⟨2, ![E, H]⟩ ![0, 1] hb2 (broadcastInDim ⟨2, ![1, H]⟩ ![1] hb1 b) (ix2 e q) = _
  rw [Cert.Fold.dotGeneral_rows dd h1 h2 h3 h4 h5 h6 none Y _ e q, bias_rows_apply hb1 hb2 b e q]
  refine congrArg (· + b (ix1 q)) (Finset.sum_congr rfl fun k _ => ?_)
  rw [transpose_ix2_apply W ht k q]

/-- A kernel block's spelling of the row-wise affine map: the matrix unit's product with the transposed weights
    into the zero accumulator, plus the bias cast [H] to [1, H] and broadcast over the block's rows. -/
theorem block_affineRows {R D H : Nat} {φ : FTy} (dd : DotDims ⟨2, ![R, D]⟩ ⟨2, ![D, H]⟩ ⟨2, ![R, H]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (ht : (⟨2, ![H, D]⟩ : Shape).Transposes [1, 0] ⟨2, ![D, H]⟩)
    (hc : (⟨1, ![H]⟩ : Shape).ShapeCasts ⟨2, ![1, H]⟩)
    (hb : (⟨2, ![1, H]⟩ : Shape).Broadcasts ⟨2, ![R, H]⟩)
    (x : FVec Ideal ⟨2, ![R, D]⟩ φ) (w : FVec Ideal ⟨2, ![H, D]⟩ φ) (b : FVec Ideal ⟨1, ![H]⟩ .f32) :
    addf (matmul dd none x (transpose ⟨2, ![D, H]⟩ [1, 0] w ht) (constant ⟨2, ![R, H]⟩ .f32 0x00000000#32))
        (broadcastTo ⟨2, ![R, H]⟩ (shapeCast ⟨2, ![1, H]⟩ b hc) hb)
      = affineRows x w b := by
  funext i
  obtain ⟨p, q, rfl⟩ : ∃ (p : Fin R) (q : Fin H), i = ix2 p q := ⟨i 0, i 1, eq_ix2 i⟩
  rw [affineRows_apply]
  show matmul dd none x (transpose ⟨2, ![D, H]⟩ [1, 0] w ht) (constant ⟨2, ![R, H]⟩ .f32 0x00000000#32) (ix2 p q)
      + broadcastTo ⟨2, ![R, H]⟩ (shapeCast ⟨2, ![1, H]⟩ b hc) hb (ix2 p q) = _
  rw [Cert.Fold.matmul_zero_rows dd h1 h2 h3 h4 h5 h6 none x _ p q, broadcastTo_1b_ab_apply _ hb p q,
    shapeCast_a_1a_apply b hc 0 q]
  refine congrArg (· + b (ix1 q)) (Finset.sum_congr rfl fun k _ => ?_)
  rw [transpose_ix2_apply w ht k q]

end Cert.RowAffine

end
-- ==== Proof.Payloads.lean ====
/-
  What each kernel body stores, as a function of the blocks it loads.

  The four linear bodies store the row-wise affine map of their blocks: the block of rows times the transposed
  weights, plus the bias (the casts to the narrower float format are the identity on exact values, and a shape cast
  to the same shape changes nothing).  The two combining bodies store tanh of the product, entry by entry, which is
  the host's tanh of the host's product.
-/
import proofs.«113510_j1357209665997_1_alg».proof.Proof.Gen.KernelIdeal.Skeleton
import proofs.«113510_j1357209665997_1_alg».proof.Proof.RowAffine
import Idealize.ShloMosaic.Lib.Pipeline.Value

noncomputable section

namespace Cert.KernelIdeal.Payload

open Idealize.ShloMosaic Idealize.ShloMosaic.ValueIdx Cert.KernelIdeal Cert.KernelIdeal.Gen Cert.RowAffine

theorem lin0 (x : Vec Ideal S5000x128 .f32) (w : Vec Ideal S128x128 .f32) (b : Vec Ideal S128 .f32) :
    k0_pay1 (F := Ideal) x w b = affineRows x w b := by
  unfold k0_pay1
  exact block_affineRows dot_S5000x128_S128x128_S5000x128_1_0_0_1_n_n rfl rfl rfl rfl rfl rfl _ _ _ x w b

theorem lin1 (x : Vec Ideal S5000x128 .f32) (w : Vec Ideal S128x128 .f32) (b : Vec Ideal S128 .f32) :
    k1_pay1 (F := Ideal) x w b = affineRows x w b := by
  unfold k1_pay1
  exact block_affineRows dot_S5000x128_S128x128_S5000x128_1_0_0_1_n_n rfl rfl rfl rfl rfl rfl _ _ _ x w b

theorem lin2 (x : Vec Ideal S5000x128 .f32) (w : Vec Ideal S128x128 .f32) (b : Vec Ideal S128 .f32) :
    k2_pay1 (F := Ideal) x w b = affineRows x w b := by
  unfold k2_pay1
  exact block_affineRows dot_S5000x128_S128x128_S5000x128_1_0_0_1_n_n rfl rfl rfl rfl rfl rfl _ _ _ x w b

theorem lin4 (x : Vec Ideal S5000x128 .f32) (w : Vec Ideal S128x128 .f32) (b : Vec Ideal S128 .f32) :
    k4_pay1 (F := Ideal) x w b = affineRows x w b := by
  unfold k4_pay1
  rw [shapeCast_self]
  exact block_affineRows dot_S5000x128_S128x128_S5000x128_1_0_0_1_n_n rfl rfl rfl rfl rfl rfl _ _ _ x w b

theorem tanhmul3 (x y : Vec Ideal S5000x128 .f32) :
    k3_pay1 (F := Ideal) x y = Host.tanh (F := Ideal) (mulf x y) := by
  unfold k3_pay1
  rw [shapeCast_self, shapeCast_self]
  rfl

theorem tanhmul5 (x y : Vec Ideal S5000x128 .f32) :
    k5_pay1 (F := Ideal) x y = Host.tanh (F := Ideal) (mulf x y) := by
  unfold k5_pay1
  rw [shapeCast_self, shapeCast_self]
  rfl

end Cert.KernelIdeal.Payload

end
-- ==== Proof.RegionLin0.lean ====
import proofs.«113510_j1357209665997_1_alg».proof.Proof.KernelIdealFrame
import proofs.«113510_j1357209665997_1_alg».proof.Proof.Payloads

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.RowAffine

variable (V : (c : Dev nD) → (b : Ref sig .tc) → Buf (Elt Ideal) ((c : Thread nD τ).loc b))

/-! ## Linear region 0: the output array is the row-wise affine map of the arrays the region finds -/

/-- The zero offsets of a rank-2 rectangle and of a rank-1 rectangle, as constant functions. -/
theorem zeros2_0 : (![0, 0] : Fin 2 → Nat) = fun _ => 0 := funext fun a => by fin_cases a <;> rfl
theorem zeros1_0 : (![0] : Fin 1 → Nat) = fun _ => 0 := funext fun a => by fin_cases a <;> rfl

/-- The row-wise affine map commutes with taking a block of rows.  Read X through f0, W through f1 and b through f2,
    and the result through f3.  If row p of the X block is the row of X that f3 gives row p of the result block
    (columns kept), the W and b blocks are all of W and b, and f3 keeps columns, then entry (p, q) of the affine map of
    the blocks is entry f3 (p, q) of the affine map of the whole arrays: the same sum of the same products. -/
theorem affineRows_blocks_0 {M : Nat} (X : (⟨2, ![M, 128]⟩ : Shape).Idx → EReal) (W : S128x128.Idx → EReal)
    (b : S128.Idx → EReal) (f0 : S5000x128.Idx → (⟨2, ![M, 128]⟩ : Shape).Idx) (f1 : S128x128.Idx → S128x128.Idx)
    (f2 : S128.Idx → S128.Idx) (f3 : S5000x128.Idx → (⟨2, ![M, 128]⟩ : Shape).Idx)
    (h0 : ∀ (p : Fin 5000) (q k : Fin 128), f0 (ix2 p k) = ix2 (f3 (ix2 p q) 0) k)
    (h1 : ∀ y, f1 y = y) (h2 : ∀ y, f2 y = y)
    (h3 : ∀ (p : Fin 5000) (q : Fin 128), f3 (ix2 p q) 1 = q) (j : S5000x128.Idx) :
    affineRows (fun y => X (f0 y)) (fun y => W (f1 y)) (fun y => b (f2 y)) j = affineRows X W b (f3 j) := by
  obtain ⟨p, q, rfl⟩ : ∃ (p : Fin 5000) (q : Fin 128), j = ix2 p q := ⟨j 0, j 1, eq_ix2 j⟩
  obtain ⟨r, s, hrs⟩ : ∃ (r : Fin M) (s : Fin 128), f3 (ix2 p q) = ix2 r s :=
    ⟨f3 (ix2 p q) 0, f3 (ix2 p q) 1, eq_ix2 _⟩
  have hs : s = q := by have h := h3 p q; rw [hrs] at h; exact h
  have hr : ∀ k : Fin 128, f0 (ix2 p k) = ix2 r k := fun k => by rw [h0 p q k, hrs]; rfl
  subst hs
  rw [hrs, affineRows_apply, affineRows_apply]
  show (∑ k : Fin 128, X (f0 (ix2 p k)) * W (f1 (ix2 s k))) + b (f2 (ix1 s)) = _
  rw [h2]
  refine congrArg (· + b (ix1 s)) (Finset.sum_congr rfl fun k _ => ?_)
  rw [hr k, h1]

/-- The index maps over the grid: the X window moves with the output window along the rows and sits at column block 0;
    the W and b windows sit at block 0 on every axis; the output window sits at column block 0 and its row block
    index stays in range. -/
theorem index_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 9 :=
  (by decide +kernel : ∀ t : Fin grid0.N, _)

/-- Every row block of the output array is some point's. -/
theorem index_onto0 : ∀ q : Fin 10, ∃ t : Fin cfg0.N, win0_3.index t = ![q.val, 0] :=
  (by decide +kernel : ∀ q : Fin 10, ∃ t : Fin grid0.N, win0_3.index t = ![q.val, 0])

/-- What point t writes back is block t of the row-wise affine map of the whole arrays. -/
theorem flushed0_eq (c : Dev nD) (t : Fin cfg0.N) :
    (dat0 (F := Ideal) V c).flushed 3 t
      = ((cfg0.win 3).blk t).view.read (Elt Ideal) (affineRows (V c main_arg0) (V c main_arg2) (V c main_arg3)) := by
  show (cfg0.win 3).cut (grid0.coords t) ((dat0 (F := Ideal) V c).after 3 t) = _
  rw [after0_3]
  unfold out0_3
  rw [View.canon_unit_zero zeros2_0]
  simp only [View.ld_unit_zero (S := S5000x128) zeros2_0, View.ld_unit_zero (S := S128x128) zeros2_0,
    View.ld_unit_zero (S := S128) zeros1_0]
  rw [Payload.lin0]
  obtain ⟨e0, e1, e2, e3, e4, e5, e6⟩ := index_facts0 t
  funext j
  show affineRows (fun y => V c main_arg0 (((cfg0.win 0).blk t).view.emb y))
      (fun y => V c main_arg2 (((cfg0.win 1).blk t).view.emb y))
      (fun y => V c main_arg3 (((cfg0.win 2).blk t).view.emb y)) j
    = affineRows (V c main_arg0) (V c main_arg2) (V c main_arg3) (((cfg0.win 3).blk t).view.emb j)
  refine affineRows_blocks_0 (V c main_arg0) (V c main_arg2) (V c main_arg3) (fun y => ((cfg0.win 0).blk t).view.emb y)
    (fun y => ((cfg0.win 1).blk t).view.emb y) (fun y => ((cfg0.win 2).blk t).view.emb y)
    (fun y => ((cfg0.win 3).blk t).view.emb y) ?_ ?_ ?_ ?_ j
  · -- row p of the X block is row (block index) * 5000 + p of X, the row the output block's row p lands on
    intro p q k
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · -- the W block is all of W
    intro y
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · -- the b block is all of b
    intro y
    funext a; apply Fin.ext
    match a with
    | ⟨0, _⟩ => show win0_2.index t (0 : Fin 1) * 128 + 1 * (y 0).val = (y 0).val; omega
  · -- the output block keeps columns
    intro p q
    apply Fin.ext
    show win0_3.index t (1 : Fin 2) * 128 + 1 * q.val = q.val; omega

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- Every index of the output array is in some point's block: row r is in the block of the point whose row block
    index is r / 5000. -/
theorem covered0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := index_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array of linear region 0 after its run: the row-wise affine map of the arrays the region finds. -/
theorem final0 (c : Dev nD) :
    (dat0 (F := Ideal) V c).arrAt 3 cfg0.N = affineRows (V c main_arg0) (V c main_arg2) (V c main_arg3) := by
  exact (dat0 (F := Ideal) V c).arrAt_eq_of_cover 3 _ (fun t _ => flushed0_eq V c t) covered0

end Cert.KernelIdeal.RegionValue

end
-- ==== Proof.RegionLin1.lean ====
import proofs.«113510_j1357209665997_1_alg».proof.Proof.KernelIdealFrame
import proofs.«113510_j1357209665997_1_alg».proof.Proof.Payloads

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.RowAffine

variable (V : (c : Dev nD) → (b : Ref sig .tc) → Buf (Elt Ideal) ((c : Thread nD τ).loc b))

/-! ## Linear region 1: the output array is the row-wise affine map of the arrays the region finds -/

/-- The zero offsets of a rank-2 rectangle and of a rank-1 rectangle, as constant functions. -/
theorem zeros2_1 : (![0, 0] : Fin 2 → Nat) = fun _ => 0 := funext fun a => by fin_cases a <;> rfl
theorem zeros1_1 : (![0] : Fin 1 → Nat) = fun _ => 0 := funext fun a => by fin_cases a <;> rfl

/-- The row-wise affine map commutes with taking a block of rows.  Read X through f0, W through f1 and b through f2,
    and the result through f3.  If row p of the X block is the row of X that f3 gives row p of the result block
    (columns kept), the W and b blocks are all of W and b, and f3 keeps columns, then entry (p, q) of the affine map of
    the blocks is entry f3 (p, q) of the affine map of the whole arrays: the same sum of the same products. -/
theorem affineRows_blocks_1 {M : Nat} (X : (⟨2, ![M, 128]⟩ : Shape).Idx → EReal) (W : S128x128.Idx → EReal)
    (b : S128.Idx → EReal) (f0 : S5000x128.Idx → (⟨2, ![M, 128]⟩ : Shape).Idx) (f1 : S128x128.Idx → S128x128.Idx)
    (f2 : S128.Idx → S128.Idx) (f3 : S5000x128.Idx → (⟨2, ![M, 128]⟩ : Shape).Idx)
    (h0 : ∀ (p : Fin 5000) (q k : Fin 128), f0 (ix2 p k) = ix2 (f3 (ix2 p q) 0) k)
    (h1 : ∀ y, f1 y = y) (h2 : ∀ y, f2 y = y)
    (h3 : ∀ (p : Fin 5000) (q : Fin 128), f3 (ix2 p q) 1 = q) (j : S5000x128.Idx) :
    affineRows (fun y => X (f0 y)) (fun y => W (f1 y)) (fun y => b (f2 y)) j = affineRows X W b (f3 j) := by
  obtain ⟨p, q, rfl⟩ : ∃ (p : Fin 5000) (q : Fin 128), j = ix2 p q := ⟨j 0, j 1, eq_ix2 j⟩
  obtain ⟨r, s, hrs⟩ : ∃ (r : Fin M) (s : Fin 128), f3 (ix2 p q) = ix2 r s :=
    ⟨f3 (ix2 p q) 0, f3 (ix2 p q) 1, eq_ix2 _⟩
  have hs : s = q := by have h := h3 p q; rw [hrs] at h; exact h
  have hr : ∀ k : Fin 128, f0 (ix2 p k) = ix2 r k := fun k => by rw [h0 p q k, hrs]; rfl
  subst hs
  rw [hrs, affineRows_apply, affineRows_apply]
  show (∑ k : Fin 128, X (f0 (ix2 p k)) * W (f1 (ix2 s k))) + b (f2 (ix1 s)) = _
  rw [h2]
  refine congrArg (· + b (ix1 s)) (Finset.sum_congr rfl fun k _ => ?_)
  rw [hr k, h1]

/-- The index maps over the grid: the X window moves with the output window along the rows and sits at column block 0;
    the W and b windows sit at block 0 on every axis; the output window sits at column block 0 and its row block
    index stays in range. -/
theorem index_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (1 : Fin 2) = 0
    ∧ win1_3.index t (0 : Fin 2) ≤ 4 :=
  (by decide +kernel : ∀ t : Fin grid1.N, _)

/-- Every row block of the output array is some point's. -/
theorem index_onto1 : ∀ q : Fin 5, ∃ t : Fin cfg1.N, win1_3.index t = ![q.val, 0] :=
  (by decide +kernel : ∀ q : Fin 5, ∃ t : Fin grid1.N, win1_3.index t = ![q.val, 0])

/-- What point t writes back is block t of the row-wise affine map of the whole arrays. -/
theorem flushed1_eq (c : Dev nD) (t : Fin cfg1.N) :
    (dat1 (F := Ideal) V c).flushed 3 t
      = ((cfg1.win 3).blk t).view.read (Elt Ideal) (affineRows (V c main_arg1) (V c main_arg4) (V c main_arg5)) := by
  show (cfg1.win 3).cut (grid1.coords t) ((dat1 (F := Ideal) V c).after 3 t) = _
  rw [after1_3]
  unfold out1_3
  rw [View.canon_unit_zero zeros2_1]
  simp only [View.ld_unit_zero (S := S5000x128) zeros2_1, View.ld_unit_zero (S := S128x128) zeros2_1,
    View.ld_unit_zero (S := S128) zeros1_1]
  rw [Payload.lin1]
  obtain ⟨e0, e1, e2, e3, e4, e5, e6⟩ := index_facts1 t
  funext j
  show affineRows (fun y => V c main_arg1 (((cfg1.win 0).blk t).view.emb y))
      (fun y => V c main_arg4 (((cfg1.win 1).blk t).view.emb y))
      (fun y => V c main_arg5 (((cfg1.win 2).blk t).view.emb y)) j
    = affineRows (V c main_arg1) (V c main_arg4) (V c main_arg5) (((cfg1.win 3).blk t).view.emb j)
  refine affineRows_blocks_1 (V c main_arg1) (V c main_arg4) (V c main_arg5) (fun y => ((cfg1.win 0).blk t).view.emb y)
    (fun y => ((cfg1.win 1).blk t).view.emb y) (fun y => ((cfg1.win 2).blk t).view.emb y)
    (fun y => ((cfg1.win 3).blk t).view.emb y) ?_ ?_ ?_ ?_ j
  · -- row p of the X block is row (block index) * 5000 + p of X, the row the output block's row p lands on
    intro p q k
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  · -- the W block is all of W
    intro y
    funext a; apply Fin.ext
    match a with
    | ⟨0, _⟩ => show win1_1.index t (0 : Fin 2) * 128 + 1 * (y 0).val = (y 0).val; omega
    | ⟨1, _⟩ => show win1_1.index t (1 : Fin 2) * 128 + 1 * (y 1).val = (y 1).val; omega
  · -- the b block is all of b
    intro y
    funext a; apply Fin.ext
    match a with
    | ⟨0, _⟩ => show win1_2.index t (0 : Fin 1) * 128 + 1 * (y 0).val = (y 0).val; omega
  · -- the output block keeps columns
    intro p q
    apply Fin.ext
    show win1_3.index t (1 : Fin 2) * 128 + 1 * q.val = q.val; omega

/-- An index of the output array is in point t's block iff each coordinate is in the block's range on its axis. -/
theorem mem_blk1 (t : Fin cfg1.N) (i : S25000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v1).slice (win1_3.rect t)).set ↔ _
  rw [View.set_slice_whole, Rect.mem_set_unit]
  exact Iff.rfl

/-- Every index of the output array is in some point's block: row r is in the block of the point whose row block
    index is r / 5000. -/
theorem covered1 (i : S25000x128.Idx) :
    ∃ t : Fin cfg1.N, (cfg1.win 3).flush t = true ∧ i ∈ ((cfg1.win 3).blk t).view.set := by
  have hi0 : (i 0).val < 25000 := (i 0).isLt
  have hi1 : (i 1).val < 128 := (i 1).isLt
  obtain ⟨t, ht⟩ := index_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array of linear region 1 after its run: the row-wise affine map of the arrays the region finds. -/
theorem final1 (c : Dev nD) :
    (dat1 (F := Ideal) V c).arrAt 3 cfg1.N = affineRows (V c main_arg1) (V c main_arg4) (V c main_arg5) := by
  exact (dat1 (F := Ideal) V c).arrAt_eq_of_cover 3 _ (fun t _ => flushed1_eq V c t) covered1

end Cert.KernelIdeal.RegionValue

end
-- ==== Proof.RegionLin2.lean ====
import proofs.«113510_j1357209665997_1_alg».proof.Proof.KernelIdealFrame
import proofs.«113510_j1357209665997_1_alg».proof.Proof.Payloads

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.RowAffine

variable (V : (c : Dev nD) → (b : Ref sig .tc) → Buf (Elt Ideal) ((c : Thread nD τ).loc b))

/-! ## Linear region 2: the output array is the row-wise affine map of the arrays the region finds -/

/-- The zero offsets of a rank-2 rectangle and of a rank-1 rectangle, as constant functions. -/
theorem zeros2_2 : (![0, 0] : Fin 2 → Nat) = fun _ => 0 := funext fun a => by fin_cases a <;> rfl
theorem zeros1_2 : (![0] : Fin 1 → Nat) = fun _ => 0 := funext fun a => by fin_cases a <;> rfl

/-- The row-wise affine map commutes with taking a block of rows.  Read X through f0, W through f1 and b through f2,
    and the result through f3.  If row p of the X block is the row of X that f3 gives row p of the result block
    (columns kept), the W and b blocks are all of W and b, and f3 keeps columns, then entry (p, q) of the affine map of
    the blocks is entry f3 (p, q) of the affine map of the whole arrays: the same sum of the same products. -/
theorem affineRows_blocks_2 {M : Nat} (X : (⟨2, ![M, 128]⟩ : Shape).Idx → EReal) (W : S128x128.Idx → EReal)
    (b : S128.Idx → EReal) (f0 : S5000x128.Idx → (⟨2, ![M, 128]⟩ : Shape).Idx) (f1 : S128x128.Idx → S128x128.Idx)
    (f2 : S128.Idx → S128.Idx) (f3 : S5000x128.Idx → (⟨2, ![M, 128]⟩ : Shape).Idx)
    (h0 : ∀ (p : Fin 5000) (q k : Fin 128), f0 (ix2 p k) = ix2 (f3 (ix2 p q) 0) k)
    (h1 : ∀ y, f1 y = y) (h2 : ∀ y, f2 y = y)
    (h3 : ∀ (p : Fin 5000) (q : Fin 128), f3 (ix2 p q) 1 = q) (j : S5000x128.Idx) :
    affineRows (fun y => X (f0 y)) (fun y => W (f1 y)) (fun y => b (f2 y)) j = affineRows X W b (f3 j) := by
  obtain ⟨p, q, rfl⟩ : ∃ (p : Fin 5000) (q : Fin 128), j = ix2 p q := ⟨j 0, j 1, eq_ix2 j⟩
  obtain ⟨r, s, hrs⟩ : ∃ (r : Fin M) (s : Fin 128), f3 (ix2 p q) = ix2 r s :=
    ⟨f3 (ix2 p q) 0, f3 (ix2 p q) 1, eq_ix2 _⟩
  have hs : s = q := by have h := h3 p q; rw [hrs] at h; exact h
  have hr : ∀ k : Fin 128, f0 (ix2 p k) = ix2 r k := fun k => by rw [h0 p q k, hrs]; rfl
  subst hs
  rw [hrs, affineRows_apply, affineRows_apply]
  show (∑ k : Fin 128, X (f0 (ix2 p k)) * W (f1 (ix2 s k))) + b (f2 (ix1 s)) = _
  rw [h2]
  refine congrArg (· + b (ix1 s)) (Finset.sum_congr rfl fun k _ => ?_)
  rw [hr k, h1]

/-- The index maps over the grid: the X window moves with the output window along the rows and sits at column block 0;
    the W and b windows sit at block 0 on every axis; the output window sits at column block 0 and its row block
    index stays in range. -/
theorem index_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (1 : Fin 2) = 0
    ∧ win2_3.index t (0 : Fin 2) ≤ 4 :=
  (by decide +kernel : ∀ t : Fin grid2.N, _)

/-- Every row block of the output array is some point's. -/
theorem index_onto2 : ∀ q : Fin 5, ∃ t : Fin cfg2.N, win2_3.index t = ![q.val, 0] :=
  (by decide +kernel : ∀ q : Fin 5, ∃ t : Fin grid2.N, win2_3.index t = ![q.val, 0])

/-- What point t writes back is block t of the row-wise affine map of the whole arrays. -/
theorem flushed2_eq (c : Dev nD) (t : Fin cfg2.N) :
    (dat2 (F := Ideal) V c).flushed 3 t
      = ((cfg2.win 3).blk t).view.read (Elt Ideal) (affineRows (V c main_arg1) (V c main_arg6) (V c main_arg7)) := by
  show (cfg2.win 3).cut (grid2.coords t) ((dat2 (F := Ideal) V c).after 3 t) = _
  rw [after2_3]
  unfold out2_3
  rw [View.canon_unit_zero zeros2_2]
  simp only [View.ld_unit_zero (S := S5000x128) zeros2_2, View.ld_unit_zero (S := S128x128) zeros2_2,
    View.ld_unit_zero (S := S128) zeros1_2]
  rw [Payload.lin2]
  obtain ⟨e0, e1, e2, e3, e4, e5, e6⟩ := index_facts2 t
  funext j
  show affineRows (fun y => V c main_arg1 (((cfg2.win 0).blk t).view.emb y))
      (fun y => V c main_arg6 (((cfg2.win 1).blk t).view.emb y))
      (fun y => V c main_arg7 (((cfg2.win 2).blk t).view.emb y)) j
    = affineRows (V c main_arg1) (V c main_arg6) (V c main_arg7) (((cfg2.win 3).blk t).view.emb j)
  refine affineRows_blocks_2 (V c main_arg1) (V c main_arg6) (V c main_arg7) (fun y => ((cfg2.win 0).blk t).view.emb y)
    (fun y => ((cfg2.win 1).blk t).view.emb y) (fun y => ((cfg2.win 2).blk t).view.emb y)
    (fun y => ((cfg2.win 3).blk t).view.emb y) ?_ ?_ ?_ ?_ j
  · -- row p of the X block is row (block index) * 5000 + p of X, the row the output block's row p lands on
    intro p q k
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  · -- the W block is all of W
    intro y
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  · -- the b block is all of b
    intro y
    funext a; apply Fin.ext
    match a with
    | ⟨0, _⟩ => show win2_2.index t (0 : Fin 1) * 128 + 1 * (y 0).val = (y 0).val; omega
  · -- the output block keeps columns
    intro p q
    apply Fin.ext
    show win2_3.index t (1 : Fin 2) * 128 + 1 * q.val = q.val; omega

/-- An index of the output array is in point t's block iff each coordinate is in the block's range on its axis. -/
theorem mem_blk2 (t : Fin cfg2.N) (i : S25000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v2).slice (win2_3.rect t)).set ↔ _
  rw [View.set_slice_whole, Rect.mem_set_unit]
  exact Iff.rfl

/-- Every index of the output array is in some point's block: row r is in the block of the point whose row block
    index is r / 5000. -/
theorem covered2 (i : S25000x128.Idx) :
    ∃ t : Fin cfg2.N, (cfg2.win 3).flush t = true ∧ i ∈ ((cfg2.win 3).blk t).view.set := by
  have hi0 : (i 0).val < 25000 := (i 0).isLt
  have hi1 : (i 1).val < 128 := (i 1).isLt
  obtain ⟨t, ht⟩ := index_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array of linear region 2 after its run: the row-wise affine map of the arrays the region finds. -/
theorem final2 (c : Dev nD) :
    (dat2 (F := Ideal) V c).arrAt 3 cfg2.N = affineRows (V c main_arg1) (V c main_arg6) (V c main_arg7) := by
  exact (dat2 (F := Ideal) V c).arrAt_eq_of_cover 3 _ (fun t _ => flushed2_eq V c t) covered2

end Cert.KernelIdeal.RegionValue

end
-- ==== Proof.RegionLin4.lean ====
import proofs.«113510_j1357209665997_1_alg».proof.Proof.KernelIdealFrame
import proofs.«113510_j1357209665997_1_alg».proof.Proof.Payloads

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.RowAffine

variable (V : (c : Dev nD) → (b : Ref sig .tc) → Buf (Elt Ideal) ((c : Thread nD τ).loc b))

/-! ## Linear region 4: the output array is the row-wise affine map of the arrays the region finds -/

/-- The zero offsets of a rank-2 rectangle and of a rank-1 rectangle, as constant functions. -/
theorem zeros2_4 : (![0, 0] : Fin 2 → Nat) = fun _ => 0 := funext fun a => by fin_cases a <;> rfl
theorem zeros1_4 : (![0] : Fin 1 → Nat) = fun _ => 0 := funext fun a => by fin_cases a <;> rfl

/-- The row-wise affine map commutes with taking a block of rows.  Read X through f0, W through f1 and b through f2,
    and the result through f3.  If row p of the X block is the row of X that f3 gives row p of the result block
    (columns kept), the W and b blocks are all of W and b, and f3 keeps columns, then entry (p, q) of the affine map of
    the blocks is entry f3 (p, q) of the affine map of the whole arrays: the same sum of the same products. -/
theorem affineRows_blocks_4 {M : Nat} (X : (⟨2, ![M, 128]⟩ : Shape).Idx → EReal) (W : S128x128.Idx → EReal)
    (b : S128.Idx → EReal) (f0 : S5000x128.Idx → (⟨2, ![M, 128]⟩ : Shape).Idx) (f1 : S128x128.Idx → S128x128.Idx)
    (f2 : S128.Idx → S128.Idx) (f3 : S5000x128.Idx → (⟨2, ![M, 128]⟩ : Shape).Idx)
    (h0 : ∀ (p : Fin 5000) (q k : Fin 128), f0 (ix2 p k) = ix2 (f3 (ix2 p q) 0) k)
    (h1 : ∀ y, f1 y = y) (h2 : ∀ y, f2 y = y)
    (h3 : ∀ (p : Fin 5000) (q : Fin 128), f3 (ix2 p q) 1 = q) (j : S5000x128.Idx) :
    affineRows (fun y => X (f0 y)) (fun y => W (f1 y)) (fun y => b (f2 y)) j = affineRows X W b (f3 j) := by
  obtain ⟨p, q, rfl⟩ : ∃ (p : Fin 5000) (q : Fin 128), j = ix2 p q := ⟨j 0, j 1, eq_ix2 j⟩
  obtain ⟨r, s, hrs⟩ : ∃ (r : Fin M) (s : Fin 128), f3 (ix2 p q) = ix2 r s :=
    ⟨f3 (ix2 p q) 0, f3 (ix2 p q) 1, eq_ix2 _⟩
  have hs : s = q := by have h := h3 p q; rw [hrs] at h; exact h
  have hr : ∀ k : Fin 128, f0 (ix2 p k) = ix2 r k := fun k => by rw [h0 p q k, hrs]; rfl
  subst hs
  rw [hrs, affineRows_apply, affineRows_apply]
  show (∑ k : Fin 128, X (f0 (ix2 p k)) * W (f1 (ix2 s k))) + b (f2 (ix1 s)) = _
  rw [h2]
  refine congrArg (· + b (ix1 s)) (Finset.sum_congr rfl fun k _ => ?_)
  rw [hr k, h1]

/-- The index maps over the grid: the X window moves with the output window along the rows and sits at column block 0;
    the W and b windows sit at block 0 on every axis; the output window sits at column block 0 and its row block
    index stays in range. -/
theorem index_facts4 : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 1) = 0
    ∧ win4_3.index t (1 : Fin 2) = 0
    ∧ win4_3.index t (0 : Fin 2) ≤ 9 :=
  (by decide +kernel : ∀ t : Fin grid4.N, _)

/-- Every row block of the output array is some point's. -/
theorem index_onto4 : ∀ q : Fin 10, ∃ t : Fin cfg4.N, win4_3.index t = ![q.val, 0] :=
  (by decide +kernel : ∀ q : Fin 10, ∃ t : Fin grid4.N, win4_3.index t = ![q.val, 0])

/-- What point t writes back is block t of the row-wise affine map of the whole arrays. -/
theorem flushed4_eq (c : Dev nD) (t : Fin cfg4.N) :
    (dat4 (F := Ideal) V c).flushed 3 t
      = ((cfg4.win 3).blk t).view.read (Elt Ideal) (affineRows (V c main_v27) (V c main_arg8) (V c main_arg9)) := by
  show (cfg4.win 3).cut (grid4.coords t) ((dat4 (F := Ideal) V c).after 3 t) = _
  rw [after4_3]
  unfold out4_3
  rw [View.canon_unit_zero zeros2_4]
  simp only [View.ld_unit_zero (S := S5000x128) zeros2_4, View.ld_unit_zero (S := S128x128) zeros2_4,
    View.ld_unit_zero (S := S128) zeros1_4]
  rw [Payload.lin4]
  obtain ⟨e0, e1, e2, e3, e4, e5, e6⟩ := index_facts4 t
  funext j
  show affineRows (fun y => V c main_v27 (((cfg4.win 0).blk t).view.emb y))
      (fun y => V c main_arg8 (((cfg4.win 1).blk t).view.emb y))
      (fun y => V c main_arg9 (((cfg4.win 2).blk t).view.emb y)) j
    = affineRows (V c main_v27) (V c main_arg8) (V c main_arg9) (((cfg4.win 3).blk t).view.emb j)
  refine affineRows_blocks_4 (V c main_v27) (V c main_arg8) (V c main_arg9) (fun y => ((cfg4.win 0).blk t).view.emb y)
    (fun y => ((cfg4.win 1).blk t).view.emb y) (fun y => ((cfg4.win 2).blk t).view.emb y)
    (fun y => ((cfg4.win 3).blk t).view.emb y) ?_ ?_ ?_ ?_ j
  · -- row p of the X block is row (block index) * 5000 + p of X, the row the output block's row p lands on
    intro p q k
    funext a; apply Fin.ext
    match a with
    | ⟨0, _⟩ => show win4_0.index t (0 : Fin 2) * 5000 + 1 * p.val = win4_3.index t (0 : Fin 2) * 5000 + 1 * p.val; omega
    | ⟨1, _⟩ => show win4_0.index t (1 : Fin 2) * 128 + 1 * k.val = k.val; omega
  · -- the W block is all of W
    intro y
    funext a; apply Fin.ext
    match a with
    | ⟨0, _⟩ => show win4_1.index t (0 : Fin 2) * 128 + 1 * (y 0).val = (y 0).val; omega
    | ⟨1, _⟩ => show win4_1.index t (1 : Fin 2) * 128 + 1 * (y 1).val = (y 1).val; omega
  · -- the b block is all of b
    intro y
    funext a; apply Fin.ext
    match a with
    | ⟨0, _⟩ => show win4_2.index t (0 : Fin 1) * 128 + 1 * (y 0).val = (y 0).val; omega
  · -- the output block keeps columns
    intro p q
    apply Fin.ext
    show win4_3.index t (1 : Fin 2) * 128 + 1 * q.val = q.val; omega

/-- An index of the output array is in point t's block iff each coordinate is in the block's range on its axis. -/
theorem mem_blk4 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v28).slice (win4_3.rect t)).set ↔ _
  rw [View.set_slice_whole, Rect.mem_set_unit]
  exact Iff.rfl

/-- Every index of the output array is in some point's block: row r is in the block of the point whose row block
    index is r / 5000. -/
theorem covered4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ := index_onto4 ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The output array of linear region 4 after its run: the row-wise affine map of the arrays the region finds. -/
theorem final4 (c : Dev nD) :
    (dat4 (F := Ideal) V c).arrAt 3 cfg4.N = affineRows (V c main_v27) (V c main_arg8) (V c main_arg9) := by
  exact (dat4 (F := Ideal) V c).arrAt_eq_of_cover 3 _ (fun t _ => flushed4_eq V c t) covered4

end Cert.KernelIdeal.RegionValue

end
-- ==== Proof.RegionTanh3.lean ====
import proofs.«113510_j1357209665997_1_alg».proof.Proof.KernelIdealFrame
import proofs.«113510_j1357209665997_1_alg».proof.Proof.Payloads

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.RowAffine

variable (V : (c : Dev nD) → (b : Ref sig .tc) → Buf (Elt Ideal) ((c : Thread nD τ).loc b))

/-- The body's one access starts at the origin of its block: the offset vector is the zero function. -/
theorem origin3 : (![0, 0] : Fin 2 → Nat) = fun _ => 0 := funext fun a => by fin_cases a <;> rfl

/-- The three windows of region 3 move together: at every grid point, on the row axis and on the column axis, each
    input window has the output window's block index. -/
theorem windows_together3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2) :=
  (by decide +kernel : ∀ t : Fin grid3.N, _)

/-- Every block of rows of the output array is some grid point's: row block q (of the 10), column block 0. -/
theorem row_block_onto3 : ∀ q : Fin 10, ∃ t : Fin cfg3.N, win3_2.index t = ![q.val, 0] :=
  (by decide +kernel : ∀ q : Fin 10, ∃ t : Fin grid3.N, win3_2.index t = ![q.val, 0])

/-- What grid point t writes back to the output array is block t of tanh (A * B), A and B the two arrays the region
    finds: the point stores tanh of the product of its two input blocks, and entry j of either input block is the
    array's entry at the output block's position of j, the three windows having one block index. -/
theorem written3 (c : Dev nD) (t : Fin cfg3.N) :
    (dat3 (F := Ideal) V c).flushed 2 t = ((cfg3.win 2).blk t).view.read (Elt Ideal) (Host.tanh (F := Ideal) (s := S50000x128) (φ := .f32) (mulf (F := Ideal) (s := S50000x128) (φ := .f32) (V c main_v26) (V c main_v14))) := by
  show (cfg3.win 2).cut (grid3.coords t) ((dat3 (F := Ideal) V c).after 2 t) = _
  rw [after3_2]
  unfold out3_2
  rw [View.canon_unit_zero origin3]
  simp only [View.ld_unit_zero (S := S5000x128) origin3]
  rw [Payload.tanhmul3]
  obtain ⟨e0, e1, e2, e3⟩ := windows_together3 t
  funext j
  show FloatOps.hostUnary (F := Ideal) .tanh (FloatOps.mulf (V c main_v26 (((cfg3.win 0).blk t).view.emb j)) (V c main_v14 (((cfg3.win 1).blk t).view.emb j))) = FloatOps.hostUnary (F := Ideal) .tanh (FloatOps.mulf (V c main_v26 (((cfg3.win 2).blk t).view.emb j)) (V c main_v14 (((cfg3.win 2).blk t).view.emb j)))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 128 + 1 * (j 1).val = win3_2.index t (1 : Fin 2) * 128 + 1 * (j 1).val; omega
  rw [h0, h1]

/-- An index of the output array is in grid point t's block iff on each axis its coordinate lies in the block's range:
    from block index times block size, for one block size. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v27).slice (win3_2.rect t)).set ↔ _
  rw [View.set_slice_whole, Rect.mem_set_unit]
  exact Iff.rfl

/-- Every index of the output array is in some grid point's block: row r lies in row block r / 5000, and the one
    column block holds all 128 columns. -/
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := row_block_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array of combining region 3 after its run: tanh of the product of the two arrays the region finds. -/
theorem final3 (c : Dev nD) :
    (dat3 (F := Ideal) V c).arrAt 2 cfg3.N = Host.tanh (F := Ideal) (s := S50000x128) (φ := .f32) (mulf (F := Ideal) (s := S50000x128) (φ := .f32) (V c main_v26) (V c main_v14)) := by
  exact (dat3 (F := Ideal) V c).arrAt_eq_of_cover 2 _ (fun t _ => written3 V c t) covered3

end Cert.KernelIdeal.RegionValue

end
-- ==== Proof.RegionTanh5.lean ====
import proofs.«113510_j1357209665997_1_alg».proof.Proof.KernelIdealFrame
import proofs.«113510_j1357209665997_1_alg».proof.Proof.Payloads

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.RowAffine

variable (V : (c : Dev nD) → (b : Ref sig .tc) → Buf (Elt Ideal) ((c : Thread nD τ).loc b))

/-- The body's one access starts at the origin of its block: the offset vector is the zero function. -/
theorem origin5 : (![0, 0] : Fin 2 → Nat) = fun _ => 0 := funext fun a => by fin_cases a <;> rfl

/-- The three windows of region 5 move together: at every grid point, on the row axis and on the column axis, each
    input window has the output window's block index. -/
theorem windows_together5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2) :=
  (by decide +kernel : ∀ t : Fin grid5.N, _)

/-- Every block of rows of the output array is some grid point's: row block q (of the 5), column block 0. -/
theorem row_block_onto5 : ∀ q : Fin 5, ∃ t : Fin cfg5.N, win5_2.index t = ![q.val, 0] :=
  (by decide +kernel : ∀ q : Fin 5, ∃ t : Fin grid5.N, win5_2.index t = ![q.val, 0])

/-- What grid point t writes back to the output array is block t of tanh (A * B), A and B the two arrays the region
    finds: the point stores tanh of the product of its two input blocks, and entry j of either input block is the
    array's entry at the output block's position of j, the three windows having one block index. -/
theorem written5 (c : Dev nD) (t : Fin cfg5.N) :
    (dat5 (F := Ideal) V c).flushed 2 t = ((cfg5.win 2).blk t).view.read (Elt Ideal) (Host.tanh (F := Ideal) (s := S25000x128) (φ := .f32) (mulf (F := Ideal) (s := S25000x128) (φ := .f32) (V c main_v52) (V c main_v40))) := by
  show (cfg5.win 2).cut (grid5.coords t) ((dat5 (F := Ideal) V c).after 2 t) = _
  rw [after5_2]
  unfold out5_2
  rw [View.canon_unit_zero origin5]
  simp only [View.ld_unit_zero (S := S5000x128) origin5]
  rw [Payload.tanhmul5]
  obtain ⟨e0, e1, e2, e3⟩ := windows_together5 t
  funext j
  show FloatOps.hostUnary (F := Ideal) .tanh (FloatOps.mulf (V c main_v52 (((cfg5.win 0).blk t).view.emb j)) (V c main_v40 (((cfg5.win 1).blk t).view.emb j))) = FloatOps.hostUnary (F := Ideal) .tanh (FloatOps.mulf (V c main_v52 (((cfg5.win 2).blk t).view.emb j)) (V c main_v40 (((cfg5.win 2).blk t).view.emb j)))
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 128 + 1 * (j 1).val = win5_2.index t (1 : Fin 2) * 128 + 1 * (j 1).val; omega
  rw [h0, h1]

/-- An index of the output array is in grid point t's block iff on each axis its coordinate lies in the block's range:
    from block index times block size, for one block size. -/
theorem mem_block5 (t : Fin cfg5.N) (i : S25000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v53).slice (win5_2.rect t)).set ↔ _
  rw [View.set_slice_whole, Rect.mem_set_unit]
  exact Iff.rfl

/-- Every index of the output array is in some grid point's block: row r lies in row block r / 5000, and the one
    column block holds all 128 columns. -/
theorem covered5 (i : S25000x128.Idx) :
    ∃ t : Fin cfg5.N, (cfg5.win 2).flush t = true ∧ i ∈ ((cfg5.win 2).blk t).view.set := by
  have hi0 : (i 0).val < 25000 := (i 0).isLt
  have hi1 : (i 1).val < 128 := (i 1).isLt
  obtain ⟨t, ht⟩ := row_block_onto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array of combining region 5 after its run: tanh of the product of the two arrays the region finds. -/
theorem final5 (c : Dev nD) :
    (dat5 (F := Ideal) V c).arrAt 2 cfg5.N = Host.tanh (F := Ideal) (s := S25000x128) (φ := .f32) (mulf (F := Ideal) (s := S25000x128) (φ := .f32) (V c main_v52) (V c main_v40)) := by
  exact (dat5 (F := Ideal) V c).arrAt_eq_of_cover 2 _ (fun t _ => written5 V c t) covered5

end Cert.KernelIdeal.RegionValue

end
-- ==== Proof.KernelFold.lean ====
/-
  The kernel program's two results as composed terms of its arguments.

  @main alternates pallas_call regions and stretches of host operations.  The buffer contents at each boundary are a
  fold from the launch memory: a region leaves its output array at the region's final array and every other buffer as
  it found it; a host stretch leaves each buffer it writes at its operations' term and every other buffer as it was.
  Reading the fold at the two result buffers, boundary by boundary:

    nodeMsgs   = affine(node_features,  W_node_msg,    b_node_msg)       region 0
    hedgeScale = affine(hedge_features, W_hedge_scale, b_hedge_scale)    region 1
    hedgeMsgs  = affine(hedge_features, W_hedge_msg,   b_hedge_msg)      region 2
    new_node   = tanh(segsum(hedgeScale rows gathered) * segsum(nodeMsgs rows gathered))        host stretch, region 3
    nodeScale  = affine(new_node, W_node_scale, b_node_scale)            region 4
    new_hedge  = tanh(segsum(nodeScale rows gathered) * segsum(hedgeMsgs rows gathered))        host stretch, region 5

  where affine is the row-wise affine map and segsum is the conv-scaled gather / scatter-add of one edge set.
-/
import proofs.«113510_j1357209665997_1_alg».proof.Proof.KernelIdealFrame
import proofs.«113510_j1357209665997_1_alg».proof.Proof.RegionLin0
import proofs.«113510_j1357209665997_1_alg».proof.Proof.RegionLin1
import proofs.«113510_j1357209665997_1_alg».proof.Proof.RegionLin2
import proofs.«113510_j1357209665997_1_alg».proof.Proof.RegionLin4
import proofs.«113510_j1357209665997_1_alg».proof.Proof.RegionTanh3
import proofs.«113510_j1357209665997_1_alg».proof.Proof.RegionTanh5
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.RowAffine Cert.KernelIdeal.RegionValue

/-! ## The four edge sets' segment sums: gather the table's rows by the (sign-normalised) senders, scale each row by its
    edge's convolution weight, add the rows up by receiver -/

section Seg
variable {F : FTy → Type} [FloatOps F]

/-- node to node: 800000 edges, rows of a [50000,128] table added up into 50000 segments. -/
def segNodeNode (tbl : Vec F S50000x128 .f32) (snd rcv : Vec F S800000 .i32) (conv : Vec F S800000x1 .f32) : Vec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 rcv)
    (mulf (broadcastInDim S800000x128 ![0, 1] bcast_S800000x1_S800000x128_0_1 conv)
      (Host.gather gather_S50000x128_S800000x1_S800000x128_1_0_n_n_0_1_1128 tbl
        (broadcastInDim S800000x1 ![0] bcast_S800000_S800000x1_0
          (select (cmpi .slt snd (broadcastInDim S800000 ![] bcast_S_S800000 (constantI S_ 32 0#32)))
            (addi snd (broadcastInDim S800000 ![] bcast_S_S800000 (constantI S_ 32 50000#32))) snd))))

/-- hyperedge to node: 200000 edges, rows of a [25000,128] table added up into 50000 segments. -/
def segHedgeNode (tbl : Vec F S25000x128 .f32) (snd rcv : Vec F S200000 .i32) (conv : Vec F S200000x1 .f32) : Vec F S50000x128 .f32 :=
  Host.scatterAdd scatter_S50000x128_S200000x1_S200000x128_1_0_0_1
    (broadcastInDim S50000x128 ![] bcast_S_S50000x128 (constant S_ .f32 0x00000000#32))
    (broadcastInDim S200000x1 ![0] bcast_S200000_S200000x1_0 rcv)
    (mulf (broadcastInDim S200000x128 ![0, 1] bcast_S200000x1_S200000x128_0_1 conv)
      (Host.gather gather_S25000x128_S200000x1_S200000x128_1_0_n_n_0_1_1128 tbl
        (broadcastInDim S200000x1 ![0] bcast_S200000_S200000x1_0
          (select (cmpi .slt snd (broadcastInDim S200000 ![] bcast_S_S200000 (constantI S_ 32 0#32)))
            (addi snd (broadcastInDim S200000 ![] bcast_S_S200000 (constantI S_ 32 25000#32))) snd))))

/-- hyperedge to hyperedge: 400000 edges, rows of a [25000,128] table added up into 25000 segments. -/
def segHedgeHedge (tbl : Vec F S25000x128 .f32) (snd rcv : Vec F S400000 .i32) (conv : Vec F S400000x1 .f32) : Vec F S25000x128 .f32 :=
  Host.scatterAdd scatter_S25000x128_S400000x1_S400000x128_1_0_0_1
    (broadcastInDim S25000x128 ![] bcast_S_S25000x128 (constant S_ .f32 0x00000000#32))
    (broadcastInDim S400000x1 ![0] bcast_S400000_S400000x1_0 rcv)
    (mulf (broadcastInDim S400000x128 ![0, 1] bcast_S400000x1_S400000x128_0_1 conv)
      (Host.gather gather_S25000x128_S400000x1_S400000x128_1_0_n_n_0_1_1128 tbl
        (broadcastInDim S400000x1 ![0] bcast_S400000_S400000x1_0
          (select (cmpi .slt snd (broadcastInDim S400000 ![] bcast_S_S400000 (constantI S_ 32 0#32)))
            (addi snd (broadcastInDim S400000 ![] bcast_S_S400000 (constantI S_ 32 25000#32))) snd))))

/-- node to hyperedge: 200000 edges, rows of a [50000,128] table added up into 25000 segments. -/
def segNodeHedge (tbl : Vec F S50000x128 .f32) (snd rcv : Vec F S200000 .i32) (conv : Vec F S200000x1 .f32) : Vec F S25000x128 .f32 :=
  Host.scatterAdd scatter_S25000x128_S200000x1_S200000x128_1_0_0_1
    (broadcastInDim S25000x128 ![] bcast_S_S25000x128 (constant S_ .f32 0x00000000#32))
    (broadcastInDim S200000x1 ![0] bcast_S200000_S200000x1_0 rcv)
    (mulf (broadcastInDim S200000x128 ![0, 1] bcast_S200000x1_S200000x128_0_1 conv)
      (Host.gather gather_S50000x128_S200000x1_S200000x128_1_0_n_n_0_1_1128 tbl
        (broadcastInDim S200000x1 ![0] bcast_S200000_S200000x1_0
          (select (cmpi .slt snd (broadcastInDim S200000 ![] bcast_S_S200000 (constantI S_ 32 0#32)))
            (addi snd (broadcastInDim S200000 ![] bcast_S_S200000 (constantI S_ 32 50000#32))) snd))))

end Seg

/-! ## What the two host stretches leave in the four segment-sum buffers, from the contents they start from -/

section HostReads
variable {F : FTy → Type} [FloatOps F] (W : Valuation τ sig (Elt F))

set_option maxHeartbeats 8000000 in
theorem host3_v14 : StableHlo.after (hostOps3 (F := F)) W (Proc.devRef .tc main_v14)
    = segNodeNode (W (Proc.devRef .tc main_v0)) (W (Proc.devRef .tc main_arg14)) (W (Proc.devRef .tc main_arg15)) (W (Proc.devRef .tc main_arg10)) := by
  after_results_simp <;> rfl

set_option maxHeartbeats 8000000 in
theorem host3_v26 : StableHlo.after (hostOps3 (F := F)) W (Proc.devRef .tc main_v26)
    = segHedgeNode (W (Proc.devRef .tc main_v1)) (W (Proc.devRef .tc main_arg16)) (W (Proc.devRef .tc main_arg17)) (W (Proc.devRef .tc main_arg11)) := by
  after_results_simp <;> rfl

set_option maxHeartbeats 8000000 in
theorem host5_v40 : StableHlo.after (hostOps5 (F := F)) W (Proc.devRef .tc main_v40)
    = segHedgeHedge (W (Proc.devRef .tc main_v2)) (W (Proc.devRef .tc main_arg18)) (W (Proc.devRef .tc main_arg19)) (W (Proc.devRef .tc main_arg12)) := by
  after_results_simp <;> rfl

set_option maxHeartbeats 8000000 in
theorem host5_v52 : StableHlo.after (hostOps5 (F := F)) W (Proc.devRef .tc main_v52)
    = segNodeHedge (W (Proc.devRef .tc main_v28)) (W (Proc.devRef .tc main_arg20)) (W (Proc.devRef .tc main_arg21)) (W (Proc.devRef .tc main_arg13)) := by
  after_results_simp <;> rfl

end HostReads

/-- Equal operands, equal results: a function of four arrays. -/
theorem congr4 {α β γ δ ε : Type} (f : α → β → γ → δ → ε) {a a' : α} {b b' : β} {c c' : γ} {d d' : δ}
    (ha : a = a') (hb : b = b') (hc : c = c') (hd : d = d') : f a b c d = f a' b' c' d' := by
  subst ha hb hc hd; rfl

/-- Equal operands, equal results: a function of three arrays. -/
theorem congr3 {α β γ ε : Type} (f : α → β → γ → ε) {a a' : α} {b b' : β} {c c' : γ}
    (ha : a = a') (hb : b = b') (hc : c = c') : f a b c = f a' b' c' := by
  subst ha hb hc; rfl

/-- Equal operands, equal results: a function of two arrays. -/
theorem congr2 {α β ε : Type} (f : α → β → ε) {a a' : α} {b b' : β} (ha : a = a') (hb : b = b') : f a b = f a' b' := by
  subst ha hb; rfl

variable (m : (ℓ : Loc nD τ sig) → Buf (Elt Ideal) ℓ) (ρ : Dev nD → PrngReg)

/-- An argument array as launched. -/
abbrev arg (c : Dev nD) (b : Ref sig .tc) : Buf (Elt Ideal) ((c.tc : Thread nD τ).loc b) := m ((c.tc : Thread nD τ).loc b)

/-! ## The two results as terms of the arguments -/

def nodeMsgs (c : Dev nD) : Vec Ideal S50000x128 .f32 := affineRows (arg m c main_arg0) (arg m c main_arg2) (arg m c main_arg3)
def hedgeScale (c : Dev nD) : Vec Ideal S25000x128 .f32 := affineRows (arg m c main_arg1) (arg m c main_arg4) (arg m c main_arg5)
def hedgeMsgs (c : Dev nD) : Vec Ideal S25000x128 .f32 := affineRows (arg m c main_arg1) (arg m c main_arg6) (arg m c main_arg7)
def gatheredMsgs (c : Dev nD) : Vec Ideal S50000x128 .f32 :=
  segNodeNode (nodeMsgs m c) (arg m c main_arg14) (arg m c main_arg15) (arg m c main_arg10)
def gatheredScale (c : Dev nD) : Vec Ideal S50000x128 .f32 :=
  segHedgeNode (hedgeScale m c) (arg m c main_arg16) (arg m c main_arg17) (arg m c main_arg11)
/-- tanh of the product of two arrays, entry by entry. -/
def tanhMul {s : Shape} (a b : FVec Ideal s .f32) : FVec Ideal s .f32 :=
  Host.tanh (F := Ideal) (s := s) (φ := .f32) (mulf (F := Ideal) (s := s) (φ := .f32) a b)
/-- The first result: the updated node features. -/
def newNode (c : Dev nD) : Vec Ideal S50000x128 .f32 := tanhMul (s := S50000x128) (gatheredScale m c) (gatheredMsgs m c)
def nodeScale (c : Dev nD) : Vec Ideal S50000x128 .f32 := affineRows (newNode m c) (arg m c main_arg8) (arg m c main_arg9)
def gatheredE (c : Dev nD) : Vec Ideal S25000x128 .f32 :=
  segHedgeHedge (hedgeMsgs m c) (arg m c main_arg18) (arg m c main_arg19) (arg m c main_arg12)
def gatheredN (c : Dev nD) : Vec Ideal S25000x128 .f32 :=
  segNodeHedge (nodeScale m c) (arg m c main_arg20) (arg m c main_arg21) (arg m c main_arg13)
/-- The second result: the updated hyperedge features. -/
def newHedge (c : Dev nD) : Vec Ideal S25000x128 .f32 := tanhMul (s := S25000x128) (gatheredN m c) (gatheredE m c)

/-! ## A host stretch leaves the buffers it does not write as they were -/

local macro "host3_keeps" : tactic => `(tactic|
  exact StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

local macro "host5_keeps" : tactic => `(tactic|
  exact StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (c : Dev nD)

/-! ## An argument no region and no host stretch has written yet, read at each boundary it is read at -/

-- region 0 writes main_v0 and reads main_arg0, main_arg2, main_arg3 through input windows
theorem at1 (b : Ref sig .tc) (hb : ∀ w, Pipeline.arrRef spec0 w ≠ b) : V1 m ρ c b = arg m c b := W1_of_ne m ρ c b hb
-- region 1 writes main_v1 and reads main_arg1, main_arg4, main_arg5
theorem at2 (b : Ref sig .tc) (h0 : ∀ w, Pipeline.arrRef spec0 w ≠ b) (h1 : ∀ w, Pipeline.arrRef spec1 w ≠ b) :
    V2 m ρ c b = arg m c b := (W2_of_ne m ρ c b h1).trans (W1_of_ne m ρ c b h0)
theorem at2_arg1 : V2 m ρ c main_arg1 = arg m c main_arg1 :=
  ((W2_arr m ρ c 0).trans (((dat1 (V1 m ρ) c).arrAt_in 0 rfl _).trans (A_eq1 (V1 m ρ) c 0))).trans (at1 m ρ c main_arg1 (by decide))
-- region 2 writes main_v2 and reads main_arg1, main_arg6, main_arg7
theorem at3 (b : Ref sig .tc) (h0 : ∀ w, Pipeline.arrRef spec0 w ≠ b) (h1 : ∀ w, Pipeline.arrRef spec1 w ≠ b)
    (h2 : ∀ w, Pipeline.arrRef spec2 w ≠ b) : V3 m ρ c b = arg m c b :=
  (W3_of_ne m ρ c b h2).trans (at2 m ρ c b h0 h1)

/-! ## The regions' outputs and the host stretches' results, boundary by boundary -/

theorem v0_at1 : V1 m ρ c main_v0 = nodeMsgs m c :=
  (W1_arr m ρ c 3).trans (final0 (V0 m ρ) c)

theorem v1_at2 : V2 m ρ c main_v1 = hedgeScale m c :=
  ((W2_arr m ρ c 3).trans (final1 (V1 m ρ) c)).trans
    (congr3 affineRows (at1 m ρ c main_arg1 (by decide)) (at1 m ρ c main_arg4 (by decide)) (at1 m ρ c main_arg5 (by decide)))

theorem v2_at3 : V3 m ρ c main_v2 = hedgeMsgs m c :=
  ((W3_arr m ρ c 3).trans (final2 (V2 m ρ) c)).trans
    (congr3 affineRows (at2_arg1 m ρ c) (at2 m ρ c main_arg6 (by decide) (by decide)) (at2 m ρ c main_arg7 (by decide) (by decide)))

theorem v0_at3 : V3 m ρ c main_v0 = nodeMsgs m c :=
  ((W3_of_ne m ρ c main_v0 (by decide)).trans (W2_of_ne m ρ c main_v0 (by decide))).trans (v0_at1 m ρ c)

theorem v1_at3 : V3 m ρ c main_v1 = hedgeScale m c :=
  (W3_of_ne m ρ c main_v1 (by decide)).trans (v1_at2 m ρ c)

/-- After the first host stretch: the node-to-node segment sum of region 0's rows. -/
theorem v14_at4 : V4 m ρ c main_v14 = gatheredMsgs m c :=
  (host3_v14 (W3 m ρ c)).trans
    (congr4 segNodeNode (v0_at3 m ρ c) (at3 m ρ c main_arg14 (by decide) (by decide) (by decide))
      (at3 m ρ c main_arg15 (by decide) (by decide) (by decide)) (at3 m ρ c main_arg10 (by decide) (by decide) (by decide)))

/-- After the first host stretch: the hyperedge-to-node segment sum of region 1's rows. -/
theorem v26_at4 : V4 m ρ c main_v26 = gatheredScale m c :=
  (host3_v26 (W3 m ρ c)).trans
    (congr4 segHedgeNode (v1_at3 m ρ c) (at3 m ρ c main_arg16 (by decide) (by decide) (by decide))
      (at3 m ρ c main_arg17 (by decide) (by decide) (by decide)) (at3 m ρ c main_arg11 (by decide) (by decide) (by decide)))

/-- A buffer the first host stretch does not write, at region 3's entry. -/
theorem at4 (b : Ref sig .tc) (hk : V4 m ρ c b = V3 m ρ c b) (h0 : ∀ w, Pipeline.arrRef spec0 w ≠ b)
    (h1 : ∀ w, Pipeline.arrRef spec1 w ≠ b) (h2 : ∀ w, Pipeline.arrRef spec2 w ≠ b) : V4 m ρ c b = arg m c b :=
  hk.trans (at3 m ρ c b h0 h1 h2)

theorem v27_at5 : V5 m ρ c main_v27 = newNode m c :=
  ((W5_arr m ρ c 2).trans (final3 (V4 m ρ) c)).trans
    (congr2 (tanhMul (s := S50000x128)) (v26_at4 m ρ c) (v14_at4 m ρ c))

theorem v28_at6 : V6 m ρ c main_v28 = nodeScale m c :=
  ((W6_arr m ρ c 3).trans (final4 (V5 m ρ) c)).trans
    (congr3 affineRows (v27_at5 m ρ c)
      ((W5_of_ne m ρ c main_arg8 (by decide)).trans (at4 m ρ c main_arg8 (by host3_keeps) (by decide) (by decide) (by decide)))
      ((W5_of_ne m ρ c main_arg9 (by decide)).trans (at4 m ρ c main_arg9 (by host3_keeps) (by decide) (by decide) (by decide))))

/-- An argument nothing has written, at the second host stretch's entry. -/
theorem at6 (b : Ref sig .tc) (hk : V4 m ρ c b = V3 m ρ c b) (h0 : ∀ w, Pipeline.arrRef spec0 w ≠ b)
    (h1 : ∀ w, Pipeline.arrRef spec1 w ≠ b) (h2 : ∀ w, Pipeline.arrRef spec2 w ≠ b) (h3 : ∀ w, Pipeline.arrRef spec3 w ≠ b)
    (h4 : ∀ w, Pipeline.arrRef spec4 w ≠ b) : V6 m ρ c b = arg m c b :=
  ((W6_of_ne m ρ c b h4).trans (W5_of_ne m ρ c b h3)).trans (at4 m ρ c b hk h0 h1 h2)

theorem v2_at6 : V6 m ρ c main_v2 = hedgeMsgs m c :=
  (((W6_of_ne m ρ c main_v2 (by decide)).trans (W5_of_ne m ρ c main_v2 (by decide))).trans
    (show V4 m ρ c main_v2 = V3 m ρ c main_v2 by host3_keeps)).trans (v2_at3 m ρ c)

/-- After the second host stretch: the hyperedge-to-hyperedge segment sum of region 2's rows. -/
theorem v40_at7 : V7 m ρ c main_v40 = gatheredE m c :=
  (host5_v40 (W6 m ρ c)).trans
    (congr4 segHedgeHedge (v2_at6 m ρ c)
      (at6 m ρ c main_arg18 (by host3_keeps) (by decide) (by decide) (by decide) (by decide) (by decide))
      (at6 m ρ c main_arg19 (by host3_keeps) (by decide) (by decide) (by decide) (by decide) (by decide))
      (at6 m ρ c main_arg12 (by host3_keeps) (by decide) (by decide) (by decide) (by decide) (by decide)))

/-- After the second host stretch: the node-to-hyperedge segment sum of region 4's rows. -/
theorem v52_at7 : V7 m ρ c main_v52 = gatheredN m c :=
  (host5_v52 (W6 m ρ c)).trans
    (congr4 segNodeHedge (v28_at6 m ρ c)
      (at6 m ρ c main_arg20 (by host3_keeps) (by decide) (by decide) (by decide) (by decide) (by decide))
      (at6 m ρ c main_arg21 (by host3_keeps) (by decide) (by decide) (by decide) (by decide) (by decide))
      (at6 m ρ c main_arg13 (by host3_keeps) (by decide) (by decide) (by decide) (by decide) (by decide)))

/-! ## The two results at the last boundary -/

/-- The second result is region 5's output. -/
theorem result1 : W8 m ρ c (Proc.devRef .tc main_v53) = newHedge m c :=
  ((W8_arr m ρ c 2).trans (final5 (V7 m ρ) c)).trans
    (congr2 (tanhMul (s := S25000x128)) (v52_at7 m ρ c) (v40_at7 m ρ c))

/-- The first result is region 3's output: region 4 reads it through an input window, and neither the second host
    stretch nor region 5 writes it. -/
theorem result0 : W8 m ρ c (Proc.devRef .tc main_v27) = newNode m c :=
  (((W8_of_ne m ρ c main_v27 (by decide)).trans
    (show V7 m ρ c main_v27 = V6 m ρ c main_v27 by host5_keeps)).trans
    ((W6_arr m ρ c 0).trans (((dat4 (V5 m ρ) c).arrAt_in 0 rfl _).trans (A_eq4 (V5 m ρ) c 0)))).trans (v27_at5 m ρ c)

end Cert.KernelIdeal.Fold

end
-- ==== Proof.Algebraic.lean ====
/-
  The two idealized programs end with equal results.

  The kernel program applies each Linear to the WHOLE table and gathers rows afterwards; the reference gathers rows
  first and applies the Linear to the gathered rows.  A Linear acts row by row, so the two orders give the same
  matrix, entry by entry (the same sum of the same products, plus the same bias entry): no law of the extended reals is
  needed, and the finiteness of the inputs is not used.  Everything around that step — the sign normalisation of the
  indices, the scaling by the convolution weights, the scatter-add by receiver, tanh of the product — is the same
  operation on both sides, applied to equal operands.
-/
import proofs.«113510_j1357209665997_1_alg».proof.Proof.KernelFold
import proofs.«113510_j1357209665997_1_alg».proof.Proof.KernelIdealRun
import proofs.«113510_j1357209665997_1_alg».proof.Proof.Gen.ReferenceIdeal.Run
import proofs.«113510_j1357209665997_1_alg».proof.Proof.Gen.Pre_finite_inputs
import proofs.«113510_j1357209665997_1_alg».proof.Defs

set_option maxRecDepth 16384

noncomputable section

namespace Cert.Bridge

open Idealize.ShloMosaic Idealize.ShloMosaic.TcCoe Idealize.ShloMosaic.ValueIdx Idealize.SL.Sem
open Cert.RowAffine

/-- The reference's order against the kernel's: the Linear of the gathered rows is the gathered rows of the Linear. -/
theorem linear_of_gathered {N E D : Nat} (g : GatherDims ⟨2, ![N, D]⟩ ⟨2, ![E, 1]⟩ ⟨2, ![E, D]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, D]) (hN : 0 < N)
    (dd : DotDims ⟨2, ![E, D]⟩ ⟨2, ![D, D]⟩ ⟨2, ![E, D]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (ht : (⟨2, ![D, D]⟩ : Shape).Transposes [1, 0] ⟨2, ![D, D]⟩)
    (hb1 : (⟨1, ![D]⟩ : Shape).BroadcastsInDim ⟨2, ![1, D]⟩ ![1])
    (hb2 : (⟨2, ![1, D]⟩ : Shape).BroadcastsInDim ⟨2, ![E, D]⟩ ![0, 1])
    (X : FVec Ideal ⟨2, ![N, D]⟩ .f32) (W : FVec Ideal ⟨2, ![D, D]⟩ .f32) (b : FVec Ideal ⟨1, ![D]⟩ .f32)
    (idx : (⟨2, ![E, 1]⟩ : Shape).Idx → BitVec 32) :
    addf (Host.dotGeneral dd none (Host.gather g X idx) (transpose ⟨2, ![D, D]⟩ [1, 0] W ht))
        (broadcastInDim ⟨2, ![E, D]⟩ ![0, 1] hb2 (broadcastInDim ⟨2, ![1, D]⟩ ![1] hb1 b))
      = Host.gather g (affineRows X W b) idx :=
  (host_affineRows dd h1 h2 h3 h4 h5 h6 ht hb1 hb2 (Host.gather g X idx) W b).trans
    (gather_affineRows g g g1 g2 g3 g4 g5 g6 g7 g1 g2 g3 g4 g5 g6 g7 hN X W b idx).symm

end Cert.Bridge

namespace Cert.Proof.Claims

open Idealize.ShloMosaic Idealize.ShloMosaic.TcCoe Idealize.SL.Sem
open Cert.KernelIdeal.Fold

set_option maxHeartbeats 16000000 in
theorem algebraic : Cert.algebraic_KernelIdeal_ReferenceIdeal := by
  intro m ρ m' ρ' _ hagree
  refine ⟨fun c => newNode m c, fun c => newHedge m c, ?_, ?_⟩
  · exact (θ_run Cert.KernelIdeal.defs _ _).mono
      (fun r h c => ⟨(h c).1.trans (result0 m ρ c), (h c).2.1.trans (result1 m ρ c), (h c).2.2⟩)
      (Cert.KernelIdeal.Gen.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13, a14, a15, a16, a17, a18, a19, a20, a21⟩ := hagree c
      rw [a0, a1, a2, a3, a4, a5, a10, a11, a14, a15, a16, a17]
      -- each Linear of gathered rows is the gathered rows of the Linear of the whole table
      rw [Cert.Bridge.linear_of_gathered Cert.ReferenceIdeal.gather_S25000x128_S200000x1_S200000x128_1_0_n_n_0_1_1128 rfl rfl rfl rfl rfl rfl rfl (by decide)
          Cert.ReferenceIdeal.dot_S200000x128_S128x128_S200000x128_1_0_0_1_n_n rfl rfl rfl rfl rfl rfl,
        Cert.Bridge.linear_of_gathered Cert.ReferenceIdeal.gather_S50000x128_S800000x1_S800000x128_1_0_n_n_0_1_1128 rfl rfl rfl rfl rfl rfl rfl (by decide)
          Cert.ReferenceIdeal.dot_S800000x128_S128x128_S800000x128_1_0_0_1_n_n rfl rfl rfl rfl rfl rfl]
      rfl
    · obtain ⟨a0, a1, a2, a3, a4, a5, a6, a7, a8, a9, a10, a11, a12, a13, a14, a15, a16, a17, a18, a19, a20, a21⟩ := hagree c
      unfold Cert.ReferenceIdeal.Value.res_main_v71
      rw [a0, a1, a2, a3, a4, a5, a6, a7, a8, a9, a10, a11, a12, a13, a14, a15, a16, a17, a18, a19, a20, a21]
      -- the same, for the four Linears the second result goes through (two of them inside the first result)
      rw [Cert.Bridge.linear_of_gathered Cert.ReferenceIdeal.gather_S25000x128_S200000x1_S200000x128_1_0_n_n_0_1_1128 rfl rfl rfl rfl rfl rfl rfl (by decide)
          Cert.ReferenceIdeal.dot_S200000x128_S128x128_S200000x128_1_0_0_1_n_n rfl rfl rfl rfl rfl rfl,
        Cert.Bridge.linear_of_gathered Cert.ReferenceIdeal.gather_S50000x128_S800000x1_S800000x128_1_0_n_n_0_1_1128 rfl rfl rfl rfl rfl rfl rfl (by decide)
          Cert.ReferenceIdeal.dot_S800000x128_S128x128_S800000x128_1_0_0_1_n_n rfl rfl rfl rfl rfl rfl,
        Cert.Bridge.linear_of_gathered Cert.ReferenceIdeal.gather_S50000x128_S200000x1_S200000x128_1_0_n_n_0_1_1128 rfl rfl rfl rfl rfl rfl rfl (by decide)
          Cert.ReferenceIdeal.dot_S200000x128_S128x128_S200000x128_1_0_0_1_n_n rfl rfl rfl rfl rfl rfl,
        Cert.Bridge.linear_of_gathered Cert.ReferenceIdeal.gather_S25000x128_S400000x1_S400000x128_1_0_n_n_0_1_1128 rfl rfl rfl rfl rfl rfl rfl (by decide)
          Cert.ReferenceIdeal.dot_S400000x128_S128x128_S400000x128_1_0_0_1_n_n rfl rfl rfl rfl rfl rfl]
      rfl

end Cert.Proof.Claims

end
-- ==== Proof.lean ====
/-
  A hypergraph message-passing layer: two rounds of "gather rows, apply a Linear, scale by the edge weights, add up by
  receiver", each round closed by tanh of the product of two such sums.

  The kernel program applies each of its four Linears (x @ W^T + b, in six pallas_calls: four Linears and two
  tanh-of-product combines) to the WHOLE feature table and gathers rows of the result; the reference gathers rows of the
  table and applies the Linear to them.  A Linear acts row by row, so gathering rows before or after it gives the same
  matrix: entry (e, j) is, on both sides, the sum over k of X(s_e, k) * W(j, k), plus b(j), where s_e is the row the
  (sign-normalised, clamped) sender word of edge e names.  At the exact instance the kernel's casts to the narrower float
  format are the identity and its matrix product into the zero accumulator is that sum, so the two programs' results
  are one function of the arguments; the scaling by the convolution weights, the scatter-add by receiver and the
  tanh of the product are the same operations on both sides.  No law of the extended reals beyond reading both sides at
  an entry is used, and the precondition (finite inputs) is never opened.

  The pieces: Proof/RowAffine.lean (the row-wise affine map and why a row gather commutes with it),
  Proof/Payloads.lean (what each kernel body stores), Proof/RegionLin*.lean and Proof/RegionTanh*.lean (each region's
  output array after its run), Proof/KernelFold.lean (the kernel program's two results as composed terms),
  Proof/KernelIdealRun.lean (the kernel program's run with its results named), Proof/Algebraic.lean (the two programs'
  results are equal).  The ideal pass rewrote nothing, so the kernel's idealization is its own text.
-/
import proofs.«113510_j1357209665997_1_alg».proof.Defs
import proofs.«113510_j1357209665997_1_alg».proof.Proof.Gen.Kernel
import proofs.«113510_j1357209665997_1_alg».proof.Proof.KernelFrame
import proofs.«113510_j1357209665997_1_alg».proof.Proof.Gen.KernelIdeal
import proofs.«113510_j1357209665997_1_alg».proof.Proof.KernelIdealFrame
import proofs.«113510_j1357209665997_1_alg».proof.Proof.Gen.ReferenceIdeal
import proofs.«113510_j1357209665997_1_alg».proof.Proof.Gen.ReferenceIdeal.Run
import proofs.«113510_j1357209665997_1_alg».proof.Proof.Gen.Pre_finite_inputs
import proofs.«113510_j1357209665997_1_alg».proof.Proof.Algebraic
import Idealize.ShloMosaic.Adequacy
import Idealize.ShloMosaic.Init

noncomputable section

namespace Cert.Proof

open Idealize.ShloMosaic Idealize.SL.Sem

/-- The word-level kernel program terminates on every weakly fair execution and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Claims.algebraic⟩

end Cert.Proof

end
